-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S256x8192 : S_.BroadcastsInDim S256x8192 (![] : Fin 0 → Fin S256x8192.rank)
  reducesTo_S256x8192_S_d0_1 : S256x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  main_v18

def fn {F : FTy → Type} [FloatOps F] (main_arg0 : FVec F S4x4096x2048 .f32) (main_arg1 : FVec F S2048x256 .f32) (main_arg2 : FVec F S256x8192 .f32) (main_arg3 : FVec F S8192 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S256x8192 .f32 := Host.absf main_arg2
  let main_cst_2 : FVec F S_ .f32 := constant S_ .f32 0x7F800000#32
  let main_v10 : FVec F S256x8192 .f32 := broadcastInDim S256x8192 ![] bcast_S_S256x8192 main_cst_2
  let main_v11 : IVec S256x8192 1 := cmpf .olt main_v9 main_v10
  let main_c_3 : IVec S_ 1 := constantI S_ 1 1#1
  let main_v12 : IVec S_ 1 := (fun x v => Host.reduce IntOp.andi x v reducesTo_S256x8192_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_v13 main_v16
-- ==== Kernel.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S_ : Shape := ⟨0, ![]⟩
abbrev S4x4104x2048 : Shape := ⟨3, ![4, 4104, 2048]⟩
abbrev S256x2048x4 : Shape := ⟨3, ![256, 2048, 4]⟩
abbrev S256x4x2048 : Shape := ⟨3, ![256, 4, 2048]⟩
abbrev S2048x4 : Shape := ⟨2, ![2048, 4]⟩
abbrev S4x2048 : Shape := ⟨2, ![4, 2048]⟩
abbrev S1x256x2048 : Shape := ⟨3, ![1, 256, 2048]⟩
abbrev S1x8x2048 : Shape := ⟨3, ![1, 8, 2048]⟩
abbrev S264x2048 : Shape := ⟨2, ![264, 2048]⟩
abbrev S256x2048 : Shape := ⟨2, ![256, 2048]⟩
abbrev S256x256 : Shape := ⟨2, ![256, 256]⟩
abbrev S1x8192 : Shape := ⟨2, ![1, 8192]⟩
abbrev S8x2048 : Shape := ⟨2, ![8, 2048]⟩

abbrev nBuf : Space → Nat
  | .hbm => 16
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S256x8192, .f32⟩
  | .hbm, ⟨3, _⟩ => ⟨S8192, .f32⟩
  | .hbm, ⟨4, _⟩ => ⟨S_, .i32⟩
  | .hbm, ⟨5, _⟩ => ⟨S_, .f32⟩
  | .hbm, ⟨6, _⟩ => ⟨S4x4104x2048, .f32⟩
  | .hbm, ⟨7, _⟩ => ⟨S256x2048x4, .f32⟩
  | .hbm, ⟨8, _⟩ => ⟨S256x4x2048, .f32⟩
  | .hbm, ⟨9, _⟩ => ⟨S256x8192, .f32⟩
  | .hbm, ⟨10, _⟩ => ⟨S2048x4, .f32⟩
  | .hbm, ⟨11, _⟩ => ⟨S4x2048, .f32⟩
  | .hbm, ⟨12, _⟩ => ⟨S8192, .f32⟩
  | .hbm, ⟨13, _⟩ => ⟨S2048x256, .bf16⟩
  | .hbm, ⟨14, _⟩ => ⟨S256x8192, .bf16⟩
  | .hbm, ⟨15, _⟩ => ⟨S4x4096x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x8x2048, .f32⟩
  | .local _ .vmem, ⟨5, _⟩ => ⟨S1x8x2048, .f32⟩
  | .local _ .vmem, ⟨6, _⟩ => ⟨S2048x256, .bf16⟩
  | .local _ .vmem, ⟨7, _⟩ => ⟨S256x8192, .bf16⟩
  | .local _ .vmem, ⟨8, _⟩ => ⟨S8192, .f32⟩
  | .local _ .vmem, ⟨9, _⟩ => ⟨S1x256x2048, .f32⟩
  | .local _ .vmem, ⟨10, _⟩ => ⟨S1x256x2048, .f32⟩
  | .local _ .vmem, ⟨11, _⟩ => ⟨S264x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c0_i32_0 : BitVec 32 := 0#32
  ![arg0.toNat, v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S4x4096x2048_S4x4104x2048_000_350_000 : S4x4096x2048.Pads (![0, 3, 0] : Fin 3 → Nat) ![0, 5, 0] ![0, 0, 0] S4x4104x2048
  h_S_ : 0 < S_.numel
  shapeCasts_S256x8192_S256x2048x4 : S256x8192.ShapeCasts S256x2048x4
  transposes_S256x2048x4_S256x4x2048_0_2_1 : S256x2048x4.Transposes [0, 2, 1] S256x4x2048
  shapeCasts_S256x4x2048_S256x8192 : S256x4x2048.ShapeCasts S256x8192
  shapeCasts_S8192_S2048x4 : S8192.ShapeCasts S2048x4
  transposes_S2048x4_S4x2048_1_0 : S2048x4.Transposes [1, 0] S4x2048
  shapeCasts_S4x2048_S8192 : S4x2048.ShapeCasts S8192
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x8192_S256x8192_0_0 : ∀ a, (![0, 0] : Fin 2 → Nat) a + S256x8192.size a ≤ S256x8192.size a
  h_S256x8192 : 0 < S256x8192.numel
  shapeCasts_S256x8192_S256x8192 : S256x8192.ShapeCasts S256x8192
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  broadcasts_S1x8192_S256x8192 : S1x8192.Broadcasts S256x8192
  inb_S264x2048_S256x2048_0_0 : ∀ a, (![0, 0] : Fin 2 → Nat) a + S256x2048.size a ≤ S264x2048.size a
  h_S256x2048 : 0 < S256x2048.numel
  shapeCasts_S256x2048_S256x2048 : S256x2048.ShapeCasts S256x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  inb_S264x2048_S8x2048_256_0 : ∀ a, (![256, 0] : Fin 2 → Nat) a + S8x2048.size a ≤ S264x2048.size a
  h_S8x2048 : 0 < S8x2048.numel
  shapeCasts_S8x2048_S8x2048 : S8x2048.ShapeCasts S8x2048
  slices_S256x8192_o0_0_S256x2048 : S256x8192.Slices ![0, 0] S256x2048
  slices_S256x8192_o0_2048_S256x2048 : S256x8192.Slices ![0, 2048] S256x2048
  inb_S264x2048_S256x2048_1_0 : ∀ a, (![1, 0] : Fin 2 → Nat) a + S256x2048.size a ≤ S264x2048.size a
  slices_S256x8192_o0_4096_S256x2048 : S256x8192.Slices ![0, 4096] S256x2048
  inb_S264x2048_S256x2048_2_0 : ∀ a, (![2, 0] : Fin 2 → Nat) a + S256x2048.size a ≤ S264x2048.size a
  slices_S256x8192_o0_6144_S256x2048 : S256x8192.Slices ![0, 6144] S256x2048
  inb_S264x2048_S256x2048_3_0 : ∀ a, (![3, 0] : Fin 2 → Nat) a + S256x2048.size a ≤ S264x2048.size a
  shapeCasts_S256x2048_S1x256x2048 : S256x2048.ShapeCasts S1x256x2048
  dot_S256x2048_S2048x256_S256x256_1_0_0_1_n_n_wf : DotDims.WF S256x2048 S2048x256 S256x256 [1] [0] [0] [1] [] []
  dot_S256x256_S256x8192_S256x8192_1_0_0_1_n_n_wf : DotDims.WF S256x256 S256x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S4x4096x2048.size a
  hwx0_0 : ∀ i : grid0.Coords, EltTy.bits .f32 = 32 ∨ (Rect.block (s := S4x4096x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x256x2048.size a < S4x4104x2048.size a
  hwx0_1 : ∀ i : grid0.Coords, EltTy.bits .f32 = 32 ∨ (Rect.unit (s := S4x4104x2048) (fun a => cc0_transform_1 i a * S1x256x2048.size a) (fun a => (Pipeline.Clip.of (cc0_transform_1 i a) (S1x256x2048.size a) (S4x4104x2048.size a)).extent (S1x256x2048.size a)) fun a => Pipeline.Clip.inb (Pipeline.Clip.ok_of (hstart0_1 i a))).WholeWords (EltTy.packing .f32)
  hwxs0_1 : ∀ i : grid0.Coords, EltTy.bits .f32 = 32 ∨ (Rect.unit (s := S1x256x2048) (fun _ => 0) (fun a => (Pipeline.Clip.of (cc0_transform_1 i a) (S1x256x2048.size a) (S4x4104x2048.size a)).extent (S1x256x2048.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x2048.size a ≤ S4x4104x2048.size a
  hwx0_2 : ∀ i : grid0.Coords, EltTy.bits .f32 = 32 ∨ (Rect.block (s := S4x4104x2048) S1x8x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S2048x256.size a
  hwx0_3 : ∀ i : grid0.Coords, EltTy.bits .bf16 = 32 ∨ (Rect.block (s := S2048x256) S2048x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x8192.size a ≤ S256x8192.size a
  hwx0_4 : ∀ i : grid0.Coords, EltTy.bits .bf16 = 32 ∨ (Rect.block (s := S256x8192) S256x8192.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x2048.size a ≤ S4x4096x2048.size a
  hwx0_6 : ∀ i : grid0.Coords, EltTy.bits .f32 = 32 ∨ (Rect.block (s := S4x4096x2048) S1x256x2048.size (cc0_transform_6 i) (hinb0_6 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_call0_v0) S1x256x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_call0_v0) S1x8x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S2048x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S256x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x256 : Shape := ⟨2, ![2048, 256]⟩
abbrev S256x8192 : Shape := ⟨2, ![256, 8192]⟩
abbrev S8192 : Shape := ⟨1, ![8192]⟩
abbrev S4x4096x256 : Shape := ⟨3, ![4, 4096, 256]⟩
abbrev S_ : Shape := ⟨0, ![]⟩
abbrev S4x4096x8192 : Shape := ⟨3, ![4, 4096, 8192]⟩
abbrev S1x1x8192 : Shape := ⟨3, ![1, 1, 8192]⟩
abbrev S4x4096x2048x4 : Shape := ⟨4, ![4, 4096, 2048, 4]⟩
abbrev S4x4099x2048 : Shape := ⟨3, ![4, 4099, 2048]⟩
abbrev S4x4096x2048x1 : Shape := ⟨4, ![4, 4096, 2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x256, .f32⟩
  | .hbm, ⟨2, _⟩ => ⟨S256x8192, .f32⟩
  | .hbm, ⟨3, _⟩ => ⟨S8192, .f32⟩
  | .hbm, ⟨4, _⟩ => ⟨S4x4096x256, .f32⟩
  | .hbm, ⟨5, _⟩ => ⟨S4x4096x256, .f32⟩
  | .hbm, ⟨6, _⟩ => ⟨S4x4096x256, .f32⟩
  | .hbm, ⟨7, _⟩ => ⟨S_, .f32⟩
  | .hbm, ⟨8, _⟩ => ⟨S4x4096x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x8192, .f32⟩
  | .hbm, ⟨15, _⟩ => ⟨S1x1x8192, .f32⟩
  | .hbm, ⟨16, _⟩ => ⟨S4x4096x8192, .f32⟩
  | .hbm, ⟨17, _⟩ => ⟨S4x4096x8192, .f32⟩
  | .hbm, ⟨18, _⟩ => ⟨S4x4096x2048x4, .f32⟩
  | .hbm, ⟨19, _⟩ => ⟨S_, .i32⟩
  | .hbm, ⟨20, _⟩ => ⟨S_, .f32⟩
  | .hbm, ⟨21, _⟩ => ⟨S4x4099x2048, .f32⟩
  | .hbm, ⟨22, _⟩ => ⟨S_, .f32⟩
  | .hbm, ⟨23, _⟩ => ⟨S4x4096x2048, .f32⟩
  | .hbm, ⟨24, _⟩ => ⟨S4x4096x2048x1, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048x1, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048x1, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S4x4096x2048, .f32⟩
  | .hbm, ⟨39, _⟩ => ⟨S4x4096x2048x1, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S_, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call1_v0 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v29 : Ref sig .tc := ⟨.hbm, 52, rfl⟩

abbrev nD : Nat := 1
abbrev τ : Topo := Topo.v7x

variable {F : FTy → Type} [FloatOps F]

class Facts₀ : Prop where
  bcast_S_S4x4096x256 : S_.BroadcastsInDim S4x4096x256 (![] : Fin 0 → Fin S4x4096x256.rank)
  bcast_S8192_S1x1x8192_2 : S8192.BroadcastsInDim S1x1x8192 (![2] : Fin 1 → Fin S1x1x8192.rank)
  bcast_S1x1x8192_S4x4096x8192_0_1_2 : S1x1x8192.BroadcastsInDim S4x4096x8192 (![0, 1, 2] : Fin 3 → Fin S4x4096x8192.rank)
  shapeCasts_S4x4096x8192_S4x4096x2048x4 : S4x4096x8192.ShapeCasts S4x4096x2048x4
  pads_S4x4096x2048_S4x4099x2048_000_300_000 : S4x4096x2048.Pads (![0, 3, 0] : Fin 3 → Nat) ![0, 0, 0] ![0, 0, 0] S4x4099x2048
  h_S_ : 0 < S_.numel
  bcast_S_S4x4096x2048 : S_.BroadcastsInDim S4x4096x2048 (![] : Fin 0 → Fin S4x4096x2048.rank)
  slices_S4x4096x2048x4_S4x4096x2048x1_0_0_0_0 : S4x4096x2048x4.Slices ![0, 0, 0, 0] S4x4096x2048x1
  shapeCasts_S4x4096x2048x1_S4x4096x2048 : S4x4096x2048x1.ShapeCasts S4x4096x2048
  slices_S4x4099x2048_S4x4096x2048_0_0_0 : S4x4099x2048.Slices ![0, 0, 0] S4x4096x2048
  slices_S4x4096x2048x4_S4x4096x2048x1_0_0_0_1 : S4x4096x2048x4.Slices ![0, 0, 0, 1] S4x4096x2048x1
  slices_S4x4099x2048_S4x4096x2048_0_1_0 : S4x4099x2048.Slices ![0, 1, 0] S4x4096x2048
  slices_S4x4096x2048x4_S4x4096x2048x1_0_0_0_2 : S4x4096x2048x4.Slices ![0, 0, 0, 2] S4x4096x2048x1
  slices_S4x4099x2048_S4x4096x2048_0_2_0 : S4x4099x2048.Slices ![0, 2, 0] S4x4096x2048
  slices_S4x4096x2048x4_S4x4096x2048x1_0_0_0_3 : S4x4096x2048x4.Slices ![0, 0, 0, 3] S4x4096x2048x1
  slices_S4x4099x2048_S4x4096x2048_0_3_0 : S4x4099x2048.Slices ![0, 3, 0] S4x4096x2048
  dot_S4x4096x2048_S2048x256_S4x4096x256_2_0_01_1_n_n_wf : DotDims.WF S4x4096x2048 S2048x256 S4x4096x256 [2] [0] [0, 1] [1] [] []
  dot_S4x4096x256_S256x8192_S4x4096x8192_2_0_01_1_n_n_wf : DotDims.WF S4x4096x256 S256x8192 S4x4096x8192 [2] [0] [0, 1] [1] [] []

variable [Facts₀]

def dot_S4x4096x2048_S2048x256_S4x4096x256_2_0_01_1_n_n : DotDims S4x4096x2048 S2048x256 S4x4096x256 where
  lhsContracting := [2]
  rhsContracting := [0]
  lhsNonContracting := [0, 1]
  rhsNonContracting := [1]
  lhsBatch := []
  rhsBatch := []
  wf := dot_S4x4096x2048_S2048x256_S4x4096x256_2_0_01_1_n_n_wf
def dot_S4x4096x256_S256x8192_S4x4096x8192_2_0_01_1_n_n : DotDims S4x4096x256 S256x8192 S4x4096x8192 where
  lhsContracting := [2]
  rhsContracting := [0]
  lhsNonContracting := [0, 1]
  rhsNonContracting := [1]
  lhsBatch := []
  rhsBatch := []
  wf := dot_S4x4096x256_S256x8192_S4x4096x8192_2_0_01_1_n_n_wf

class Facts : Prop extends Facts₀ where

variable [Facts]
-- ==== Proof.K.Body.lean ====
/-
  The kernel body of the dynamic short convolution, run once on whole staging buffers.

  The body reads the token block `x0` (256 × 2048), the two weight blocks and the bias, and the two blocks of the
  padded input: `x1`, its 256 rows at the point, and `x2`, the 8 rows that follow them. It copies `x1` into rows
  0 … 255 of a 264-row scratch and `x2` into rows 256 … 263, reads the scratch back four times, at row offsets
  0, 1, 2, 3, multiplies each read by its tap (a 2048-column slice of the generated kernels) and adds the four
  products, and stores `silu` of the sum over the whole output block. What the output buffer holds afterwards is
  `out6` of the six input blocks, whatever it and the scratch held before; the input buffers are left as found.
-/
import proofs.«137645_j51651276701955_1_alg».proof.Proof.Gen.Kernel.Launch
import proofs.«137645_j51651276701955_1_alg».proof.Proof.Gen.Kernel.Skeleton
import proofs.«137645_j51651276701955_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 1 × 256 × 2048 block. -/
abbrev rTok : Rect S1x256x2048 := Rect.unit (s := S1x256x2048) ![0, 0, 0] S1x256x2048.size inb_S1x256x2048_S1x256x2048_0_0_0
/-- The whole 1 × 8 × 2048 block of following rows. -/
abbrev rHalo : Rect S1x8x2048 := Rect.unit (s := S1x8x2048) ![0, 0, 0] S1x8x2048.size inb_S1x8x2048_S1x8x2048_0_0_0
/-- The whole first-layer weight block. -/
abbrev rW1 : Rect S2048x256 := Rect.unit (s := S2048x256) ![0, 0] S2048x256.size inb_S2048x256_S2048x256_0_0
/-- The whole second-layer weight block. -/
abbrev rW2 : Rect S256x8192 := Rect.unit (s := S256x8192) ![0, 0] S256x8192.size inb_S256x8192_S256x8192_0_0
/-- The whole bias. -/
abbrev rB2 : Rect S8192 := Rect.unit (s := S8192) ![0] S8192.size inb_S8192_S8192_0
/-- Rows 0 … 255 of the scratch, -/
abbrev rS0 : Rect S264x2048 := Rect.unit (s := S264x2048) ![0, 0] S256x2048.size inb_S264x2048_S256x2048_0_0
/-- rows 1 … 256, -/
abbrev rS1 : Rect S264x2048 := Rect.unit (s := S264x2048) ![1, 0] S256x2048.size inb_S264x2048_S256x2048_1_0
/-- rows 2 … 257, -/
abbrev rS2 : Rect S264x2048 := Rect.unit (s := S264x2048) ![2, 0] S256x2048.size inb_S264x2048_S256x2048_2_0
/-- rows 3 … 258, -/
abbrev rS3 : Rect S264x2048 := Rect.unit (s := S264x2048) ![3, 0] S256x2048.size inb_S264x2048_S256x2048_3_0
/-- and rows 256 … 263. -/
abbrev rSH : Rect S264x2048 := Rect.unit (s := S264x2048) ![256, 0] S8x2048.size inb_S264x2048_S8x2048_256_0

/-! ## What the body leaves -/

/-- The two stores into the scratch, last first: the 8 following rows at rows 256 … 263 over the 256 rows at 0 … 255. -/
def scrL (x1 : Vec F S1x256x2048 .f32) (x2 : Vec F S1x8x2048 .f32) : List (View.Piece (Elt F) S264x2048 .f32) :=
  [⟨rSH, k0_pay4 (View.ld x2 rHalo)⟩, ⟨rS0, k0_pay3 (View.ld x1 rTok)⟩]

/-- What a read of the scratch through the rectangle `r` finds after those two stores. -/
def scrRows (r : Rect S264x2048) (x1 : Vec F S1x256x2048 .f32) (x2 : Vec F S1x8x2048 .f32) : r.shape.Idx → Elt F .f32 :=
  fun j => View.canon (scrL x1 x2) (r.toLoadRect.idx j)

/-- The generated taps, all four side by side: 256 × 8192. -/
def taps (x0 : Vec F S1x256x2048 .f32) (x3 : Vec F S2048x256 .bf16) (x4 : Vec F S256x8192 .bf16) (x5 : Vec F S8192 .f32) :
    FVec F S256x8192 .f32 :=
  k0_pay2 (View.ld x0 rTok) (View.ld x3 rW1) (View.ld x4 rW2) (View.ld x5 rB2)

/-- The output block's payload from the six input blocks. -/
def outPay (x0 : Vec F S1x256x2048 .f32) (x1 : Vec F S1x256x2048 .f32) (x2 : Vec F S1x8x2048 .f32) (x3 : Vec F S2048x256 .bf16)
    (x4 : Vec F S256x8192 .bf16) (x5 : Vec F S8192 .f32) : FVec F S1x256x2048 .f32 :=
  k0_pay1 (taps x0 x3 x4 x5)
    (k0_pay5 (View.ld x0 rTok) (View.ld x3 rW1) (View.ld x4 rW2) (View.ld x5 rB2) (scrRows rS0 x1 x2))
    (k0_pay6 (View.ld x0 rTok) (View.ld x3 rW1) (View.ld x4 rW2) (View.ld x5 rB2))
    (scrRows rS1 x1 x2) (scrRows rS2 x1 x2) (scrRows rS3 x1 x2)

/-- The output buffer after the body: its one store, over the whole block. -/
def out6 (x0 : Vec F S1x256x2048 .f32) (x1 : Vec F S1x256x2048 .f32) (x2 : Vec F S1x8x2048 .f32) (x3 : Vec F S2048x256 .bf16)
    (x4 : Vec F S256x8192 .bf16) (x5 : Vec F S8192 .f32) : Vec F S1x256x2048 .f32 :=
  View.canon [⟨rTok, outPay x0 x1 x2 x3 x4 x5⟩]

/-- The one store covers the output block. -/
theorem cover6 (p0 : Vec F S1x256x2048 .f32) (y : S1x256x2048.Idx) :
    ∃ pc ∈ ([⟨rTok, p0⟩] : List (View.Piece (Elt F) S1x256x2048 .f32)), y ∈ pc.1.set :=
  View.cover_of_tiled [⟨rTok, p0⟩] S1x256x2048.size (by rfl) y

/-! ## The body's triple -/

set_option maxHeartbeats 4000000 in
/-- The body on whole staging memrefs: the six inputs at read contents `x0 … x5`, the output and the scratch at
    anything; it runs to the continuation holding the inputs as they were, the output at `out6` of the inputs and
    the scratch at something. -/
theorem sound_kernel (c : Dev nD) (E : Set ℕ) (i : grid0.Coords)
    (arg2 : Memref sig .tc .vmem S1x256x2048 .f32) (harg2 : arg2.IsWhole) (arg3 : Memref sig .tc .vmem S1x256x2048 .f32) (harg3 : arg3.IsWhole)
    (arg4 : Memref sig .tc .vmem S1x8x2048 .f32) (harg4 : arg4.IsWhole) (arg5 : Memref sig .tc .vmem S2048x256 .bf16) (harg5 : arg5.IsWhole)
    (arg6 : Memref sig .tc .vmem S256x8192 .bf16) (harg6 : arg6.IsWhole) (arg7 : Memref sig .tc .vmem S8192 .f32) (harg7 : arg7.IsWhole)
    (arg8 : Memref sig .tc .vmem S1x256x2048 .f32) (harg8 : arg8.IsWhole) (arg9 : Memref sig .tc .vmem S264x2048 .f32) (harg9 : arg9.IsWhole)
    (x0 : Vec F S1x256x2048 .f32) (x1 : Vec F S1x256x2048 .f32) (x2 : Vec F S1x8x2048 .f32) (x3 : Vec F S2048x256 .bf16)
    (x4 : Vec F S256x8192 .bf16) (x5 : Vec F S8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5) ∗ (∃ s, owns (c : Thread nD τ) arg9 fullShare s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover6 _)).trans ?_
    sl_unfold_run_names
    simp only [View.readCov_eq_canon']
    rfl
  · iexists _; iexists _; isplitr
    swap; · iexact H9
    ipureintro; rfl

end Cert.Kernel.Hand

end
-- ==== Proof.K.Data.lean ====
/-
  The proof data of the one pipelined region, and its body obligation.

  The program pads the token array along time on the host (three zero rows in front, five behind), re-lays the
  second-layer weights and the bias so that tap `w` of channel `d` sits at column `w · 2048 + d`, narrows the two
  weight arrays, and then runs the region on a 4 × 16 grid: point `(b, i)` works on rows `256 i … 256 i + 255` of
  batch `b`. Seven windows: the token block, the padded array's block at the same rows, the 8 padded rows that
  follow, the two weight arrays and the bias (fetched once), and the output block (written back at every point).

  After the body every input buffer holds its block as fetched, and the output buffer holds `out6` of the six
  input blocks. The padded array is read by two windows, which share it half and half. The region's invariant
  is the scratch buffer at some contents.
-/
import proofs.«137645_j51651276701955_1_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the eleven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded array is 4104 rows long, not a multiple of 256, so its 256-row window is one whose last block
    could be cut at the array's end. No block the grid asks for is: blocks 0 … 15 end at row 4096. -/
theorem clip1_none : ∀ (t : Fin cfg0.N) (a : Fin 3), (cfg0.win 1).clip (cfg0.grid.coords t) a = none :=
  (by decide +kernel : ∀ (t : Fin grid0.N) (a : Fin 3), win0_1.clip (grid0.coords t) a = none)

/-- That window's block as its 256 × 2048 staging buffer holds it (nothing is left unfilled, `clip1_none`). -/
def blk1 (c : Dev nD) (t : Fin cfg0.N) : S1x256x2048.Idx → Elt F .f32 :=
  win0_1.fill (grid0.coords t) (fun _ => Scalar.ofBits .f32 0#32) (iblk m c 1 t)

/-! ## The proof data -/

/-- The proof data on core `c`: the arrays as the region finds them; after the body at point `t` each input's buffer
    at its block and the output's at `out6` of the input blocks; the invariant the scratch at some contents; the
    padded array shared half and half between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (blk1 m c t) (iblk m c 2 t) (iblk m c 3 t) (iblk m c 4 t) (iblk m c 5 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out6 (iblk m c 0 t) (blk1 m c t) (iblk m c 2 t) (iblk m c 3 t) (iblk m c 4 t) (iblk m c 5 t) := by dsimp only [dats]

/-! ## What the body finds -/

/-- An input window whose blocks tile its array holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The padded array's 256-row window is fetched at every point, and the fetch fills the whole buffer. -/
theorem before0_1 (c : Dev nD) (t : Fin cfg0.N) (d) : (dats m 0 c).before 1 t d = blk1 m c t := by
  rw [(dats m 0 c).before_fetched 1 t (fetch0_1 t) d]
  unfold Dat.fetched Dat.blockOf blk1 iblk
  rw [A_eq]
  exact Pipeline.fill_of_clip_none (cfg := cfg0) 1 _ (clip1_none t) _ _ _

/-- The output's buffer is fresh at every point: every point writes it back. -/
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

end Cert.Kernel.Hand

end
-- ==== Proof.K.Oblig.lean ====
/-
  The body obligation of the region, at a generic grid point.

  At point `t` the body is called with each input buffer holding its block (`before0_W`), the output buffer and the
  scratch holding anything. It leaves the inputs as found and the output at `out6` of the six blocks, which is
  what the proof data says the buffers hold after the body; the scratch goes back into the invariant at whatever it
  now holds. The padded array's 256-row window is stated on the part of its buffer a fetch fills, which for every
  point of the grid is the whole buffer.
-/
import proofs.«137645_j51651276701955_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the scratch comes
    out of the invariant and goes back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.scopedRest spec0 c from rfl, scopedRest0_eq]
  iintro ⟨⟨%fs, HS⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _
    (iblk m c 0 t) (blk1 m c t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  simp only [owns_whole_eq]
  isplitl [HS]
  · iexists fs; iexists fs; isplitr; · ipureintro; rfl
    iexact HS
  iintro ⟨H0, H1, H2, H3, H4, H5, H6, ⟨%s, %f, -, HS⟩⟩
  isplitl [HS]
  · iexists f; iexact HS
  isplitl [Ho]; · iexact Ho
  isplitl [H0]; · iexact H0
  isplitl [H1]
  · iexists (fun _ => Scalar.ofBits .f32 0#32)
    rw [show win0_1.cut (grid0.coords t) (blk1 m c t) = iblk m c 1 t from win0_1.cut_fill _ _ _]
    iexact H1
  isplitl [H2]; · iexact H2
  isplitl [H3]; · iexact H3
  isplitl [H4]; · iexact H4
  isplitl [H5]; · iexact H5
  iexact H6

/-- The library's body obligation, in the form that states a cut window on the part a fetch fills, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.K.Split.lean ====
/-
  How the buffers behind the kernel's windowed arrays are dealt among its seven windows.

  The windows read six distinct buffers: the token array (window 0), the padded array (windows 1 AND 2: its 256-row
  block at the point and the 8 rows after it), the two weight arrays and the bias (3, 4, 5), and the result (6).
  The padded array's full share is split into its left and right halves, one for each of its two windows; every
  other buffer goes whole to its one window.
-/
import proofs.«137645_j51651276701955_1_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The buffers behind the arrays, each whole at the full share at contents `V`, make the proof data's arrays at
    entry, for any proof data whose entry arrays are `V`'s and whose input shares are: the left half for window 1,
    the right half for window 2, the full share for windows 0, 3, 4 and 5. -/
theorem arrays_of_arrBufs {c : Dev nD} (dat : Dat τ (Elt F) Unit ℕ (UR sig nD τ) ℕ cfg0 c)
    (V : (b : Ref sig .tc) → Buf (Elt F) ((c : Thread nD τ).loc b))
    (hA : ∀ w, dat.A w = V (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) :
    (Pipeline.arrBufs spec0 c V : sProp 𝕄) ⊢ dat.arrays (dat.arrAt · 0) := by
  classical
  -- the share each window holds its array at: an input's own, the output's full
  have hs0 : dat.share 0 = fullShare := (show dat.share 0 = dat.q 0 from rfl).trans hq0
  have hs1 : dat.share 1 = fullShare.left := (show dat.share 1 = dat.q 1 from rfl).trans hq1
  have hs2 : dat.share 2 = fullShare.right := (show dat.share 2 = dat.q 2 from rfl).trans hq2
  have hs3 : dat.share 3 = fullShare := (show dat.share 3 = dat.q 3 from rfl).trans hq3
  have hs4 : dat.share 4 = fullShare := (show dat.share 4 = dat.q 4 from rfl).trans hq4
  have hs5 : dat.share 5 = fullShare := (show dat.share 5 = dat.q 5 from rfl).trans hq5
  have hs6 : dat.share 6 = fullShare := rfl
  -- the seven windows' arrays are six buffers: windows 1 and 2 have the padded array both
  have himg : Finset.univ.image (Pipeline.arrRef spec0)
      = [main_arg0, main_call0_v0, main_call0_v7, main_call0_v8, main_call0_v6, main_v0].toFinset := by decide
  unfold Dat.arrays Pipeline.arrBufs
  rw [bigSep_eq_bigSepL_of_eq _ himg (by decide), bigSep_W0]
  -- every array is a whole buffer, so each window's element set is all of it (windows 1 and 2 have one array,
  -- hence one element set: the rewrite for window 1 serves both)
  have e0 : (cfg0.win 0).arr.view.set = Finset.univ := (arr_whole0 0).set_eq_univ
  have e1 : (cfg0.win 1).arr.view.set = Finset.univ := (arr_whole0 1).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  rw [hs0, hs1, hs2, hs3, hs4, hs5, hs6, e0, e1, e3, e4, e5, e6]
  beta_reduce
  -- before any write-back an array holds its entry contents, which are `V`'s
  rw [show dat.arrAt 0 0 = V (Pipeline.arrRef spec0 0) from hA 0, show dat.arrAt 1 0 = V (Pipeline.arrRef spec0 1) from hA 1,
    show dat.arrAt 2 0 = V (Pipeline.arrRef spec0 2) from hA 2, show dat.arrAt 3 0 = V (Pipeline.arrRef spec0 3) from hA 3,
    show dat.arrAt 4 0 = V (Pipeline.arrRef spec0 4) from hA 4, show dat.arrAt 5 0 = V (Pipeline.arrRef spec0 5) from hA 5,
    show dat.arrAt 6 0 = V (Pipeline.arrRef spec0 6) from hA 6]
  show (iprop((((c : Thread nD τ).loc main_arg0) ↦{fullShare} V main_arg0) ∗ (((c : Thread nD τ).loc main_call0_v0) ↦{fullShare} V main_call0_v0)
      ∗ (((c : Thread nD τ).loc main_call0_v7) ↦{fullShare} V main_call0_v7) ∗ (((c : Thread nD τ).loc main_call0_v8) ↦{fullShare} V main_call0_v8)
      ∗ (((c : Thread nD τ).loc main_call0_v6) ↦{fullShare} V main_call0_v6) ∗ (((c : Thread nD τ).loc main_v0) ↦{fullShare} V main_v0)) : sProp 𝕄) ⊢ _
  iintro ⟨H0, H12, H3, H4, H5, H6⟩
  -- the padded array's full share is its left half and its right half
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

end Cert.Kernel.Hand

end
-- ==== Proof.LibSharedFrame.lean ====
/-
  A frame run for a pipelined kernel whose input windows may SHARE an array.

  One region on a static grid, no semaphore or transfer of the kernel's own, nothing kept from point to point
  outside the staging buffers except scratch the proof data's invariant describes. One array may be handed to
  the kernel through several input windows: how its full share is dealt among them is a hypothesis (`hsplit`).
  Every weakly fair execution of the program terminates, each windowed array ends at the contents the proof
  data computes (`Dat.arrAt … N`), and every other unscoped buffer ends as the region found it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run of a kernel whose windows may share arrays. The invariant is entered from the scoped buffers the
    pipeline does not stage, each at some contents (`hin`), and gives them back after the last point (`hout`). -/
theorem θ_run_frame_shared (cfgs : P → Cfg sig Λ₀)
    (dats : (p : P) → (c : Dev nD) → Dat τ Val Unit ℕ (UR sig nD τ) ℕ (cfgs p) c) (p : P)
    (hw : WinFacts₀ (cfgs p).spec) (hinj : Function.Injective (cellOf (nD := nD) (τ := τ) cfgs))
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  -- The ghost state is the pipeline's alone: every staging cell's owner at round 0 and the launch's duty tokens.
  -- Of the unscoped buffers that are no window's array the kernel gets nothing (X, Y empty): they bypass the
  -- region whole (Z) and are read back against the final memory, each still at its entry contents.
  exact θ_run_region_noSem_shared (Ix := Unit) (Name := ℕ) (U := UR sig nD τ) (Lvl := ℕ) cfgs dats () hinj p hw emb₁ defs₀ 𝒱₀ m g main
    hbody hne harr hstage howed
    (u₀ := Rounds.initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      -- a points-to at the full share agrees with the memory the state interpretation holds
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Pipeline

end Idealize.ShloMosaic

end
-- ==== Proof.K.Frame.lean ====
/-
  The run of the program and its frame.

  From any memory with zero semaphore counters, every weakly fair execution of the program terminates without a
  fault; each array a window stages ends at what the proof data computes (an input as the region found it, the
  result overwritten block by block by what the body left), and every other unscoped buffer as the region found it.
  The four argument arrays are never written: the token array is an input window's array, the other three bypass the
  region, and no host operation writes any of them.
-/
import proofs.«137645_j51651276701955_1_alg».proof.Proof.K.Oblig
import proofs.«137645_j51651276701955_1_alg».proof.Proof.K.Split
import proofs.«137645_j51651276701955_1_alg».proof.Proof.LibSharedFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every weakly fair execution terminates, the windowed arrays end at the proof data's contents and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) winFacts₀0 cellOf_inj block_pos0 arr_whole0 stage_whole0 defs₀ Variants.none m ρ main
    (hbody := body_obligation m) (howed := fun _ _ => rfl) (V := V m) (hmain := hmain m Variants.none)
    (hsplit := fun c => arrays_of_arrBufs (dats m 0 c) (V m c) (A_eq m c) rfl rfl rfl rfl rfl rfl)
    (hin := fun _ => BI.Entails.refl _) (hout := fun _ => BI.Entails.refl _)

/-- info: 'Cert.Kernel.Hand.run_main' depends on axioms: [propext, Classical.choice, Quot.sound] -/
#guard_msgs in #print axioms run_main

/-- The three arguments no window stages are unscoped and no window's array. -/
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)

/-- The frame: the program runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 arg1_rest).trans (V_main_arg1 m c),
      ((h c).2 main_arg2 arg2_rest).trans (V_main_arg2 m c),
      ((h c).2 main_arg3 arg3_rest).trans (V_main_arg3 m c)⟩) (run_main m ρ)

end Cert.Kernel.Hand

end
-- ==== Proof.KI.Body.lean ====
/-
  The kernel body of the dynamic short convolution, run once on whole staging buffers.

  The body reads the token block `x0` (256 × 2048), the two weight blocks and the bias, and the two blocks of the
  padded input: `x1`, its 256 rows at the point, and `x2`, the 8 rows that follow them. It copies `x1` into rows
  0 … 255 of a 264-row scratch and `x2` into rows 256 … 263, reads the scratch back four times, at row offsets
  0, 1, 2, 3, multiplies each read by its tap (a 2048-column slice of the generated kernels) and adds the four
  products, and stores `silu` of the sum over the whole output block. What the output buffer holds afterwards is
  `out6` of the six input blocks, whatever it and the scratch held before; the input buffers are left as found.
-/
import proofs.«137645_j51651276701955_1_alg».proof.Proof.Gen.KernelIdeal.Launch
import proofs.«137645_j51651276701955_1_alg».proof.Proof.Gen.KernelIdeal.Skeleton
import proofs.«137645_j51651276701955_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- A whole 1 × 256 × 2048 block. -/
abbrev rTok : Rect S1x256x2048 := Rect.unit (s := S1x256x2048) ![0, 0, 0] S1x256x2048.size inb_S1x256x2048_S1x256x2048_0_0_0
/-- The whole 1 × 8 × 2048 block of following rows. -/
abbrev rHalo : Rect S1x8x2048 := Rect.unit (s := S1x8x2048) ![0, 0, 0] S1x8x2048.size inb_S1x8x2048_S1x8x2048_0_0_0
/-- The whole first-layer weight block. -/
abbrev rW1 : Rect S2048x256 := Rect.unit (s := S2048x256) ![0, 0] S2048x256.size inb_S2048x256_S2048x256_0_0
/-- The whole second-layer weight block. -/
abbrev rW2 : Rect S256x8192 := Rect.unit (s := S256x8192) ![0, 0] S256x8192.size inb_S256x8192_S256x8192_0_0
/-- The whole bias. -/
abbrev rB2 : Rect S8192 := Rect.unit (s := S8192) ![0] S8192.size inb_S8192_S8192_0
/-- Rows 0 … 255 of the scratch, -/
abbrev rS0 : Rect S264x2048 := Rect.unit (s := S264x2048) ![0, 0] S256x2048.size inb_S264x2048_S256x2048_0_0
/-- rows 1 … 256, -/
abbrev rS1 : Rect S264x2048 := Rect.unit (s := S264x2048) ![1, 0] S256x2048.size inb_S264x2048_S256x2048_1_0
/-- rows 2 … 257, -/
abbrev rS2 : Rect S264x2048 := Rect.unit (s := S264x2048) ![2, 0] S256x2048.size inb_S264x2048_S256x2048_2_0
/-- rows 3 … 258, -/
abbrev rS3 : Rect S264x2048 := Rect.unit (s := S264x2048) ![3, 0] S256x2048.size inb_S264x2048_S256x2048_3_0
/-- and rows 256 … 263. -/
abbrev rSH : Rect S264x2048 := Rect.unit (s := S264x2048) ![256, 0] S8x2048.size inb_S264x2048_S8x2048_256_0

/-! ## What the body leaves -/

/-- The two stores into the scratch, last first: the 8 following rows at rows 256 … 263 over the 256 rows at 0 … 255. -/
def scrL (x1 : Vec F S1x256x2048 .f32) (x2 : Vec F S1x8x2048 .f32) : List (View.Piece (Elt F) S264x2048 .f32) :=
  [⟨rSH, k0_pay4 (View.ld x2 rHalo)⟩, ⟨rS0, k0_pay3 (View.ld x1 rTok)⟩]

/-- What a read of the scratch through the rectangle `r` finds after those two stores. -/
def scrRows (r : Rect S264x2048) (x1 : Vec F S1x256x2048 .f32) (x2 : Vec F S1x8x2048 .f32) : r.shape.Idx → Elt F .f32 :=
  fun j => View.canon (scrL x1 x2) (r.toLoadRect.idx j)

/-- The generated taps, all four side by side: 256 × 8192. -/
def taps (x0 : Vec F S1x256x2048 .f32) (x3 : Vec F S2048x256 .bf16) (x4 : Vec F S256x8192 .bf16) (x5 : Vec F S8192 .f32) :
    FVec F S256x8192 .f32 :=
  k0_pay2 (View.ld x0 rTok) (View.ld x3 rW1) (View.ld x4 rW2) (View.ld x5 rB2)

/-- The output block's payload from the six input blocks. -/
def outPay (x0 : Vec F S1x256x2048 .f32) (x1 : Vec F S1x256x2048 .f32) (x2 : Vec F S1x8x2048 .f32) (x3 : Vec F S2048x256 .bf16)
    (x4 : Vec F S256x8192 .bf16) (x5 : Vec F S8192 .f32) : FVec F S1x256x2048 .f32 :=
  k0_pay1 (taps x0 x3 x4 x5)
    (k0_pay5 (View.ld x0 rTok) (View.ld x3 rW1) (View.ld x4 rW2) (View.ld x5 rB2) (scrRows rS0 x1 x2))
    (k0_pay6 (View.ld x0 rTok) (View.ld x3 rW1) (View.ld x4 rW2) (View.ld x5 rB2))
    (scrRows rS1 x1 x2) (scrRows rS2 x1 x2) (scrRows rS3 x1 x2)

/-- The output buffer after the body: its one store, over the whole block. -/
def out6 (x0 : Vec F S1x256x2048 .f32) (x1 : Vec F S1x256x2048 .f32) (x2 : Vec F S1x8x2048 .f32) (x3 : Vec F S2048x256 .bf16)
    (x4 : Vec F S256x8192 .bf16) (x5 : Vec F S8192 .f32) : Vec F S1x256x2048 .f32 :=
  View.canon [⟨rTok, outPay x0 x1 x2 x3 x4 x5⟩]

/-- The one store covers the output block. -/
theorem cover6 (p0 : Vec F S1x256x2048 .f32) (y : S1x256x2048.Idx) :
    ∃ pc ∈ ([⟨rTok, p0⟩] : List (View.Piece (Elt F) S1x256x2048 .f32)), y ∈ pc.1.set :=
  View.cover_of_tiled [⟨rTok, p0⟩] S1x256x2048.size (by rfl) y

/-! ## The body's triple -/

set_option maxHeartbeats 4000000 in
/-- The body on whole staging memrefs: the six inputs at read contents `x0 … x5`, the output and the scratch at
    anything; it runs to the continuation holding the inputs as they were, the output at `out6` of the inputs and
    the scratch at something. -/
theorem sound_kernel (c : Dev nD) (E : Set ℕ) (i : grid0.Coords)
    (arg2 : Memref sig .tc .vmem S1x256x2048 .f32) (harg2 : arg2.IsWhole) (arg3 : Memref sig .tc .vmem S1x256x2048 .f32) (harg3 : arg3.IsWhole)
    (arg4 : Memref sig .tc .vmem S1x8x2048 .f32) (harg4 : arg4.IsWhole) (arg5 : Memref sig .tc .vmem S2048x256 .bf16) (harg5 : arg5.IsWhole)
    (arg6 : Memref sig .tc .vmem S256x8192 .bf16) (harg6 : arg6.IsWhole) (arg7 : Memref sig .tc .vmem S8192 .f32) (harg7 : arg7.IsWhole)
    (arg8 : Memref sig .tc .vmem S1x256x2048 .f32) (harg8 : arg8.IsWhole) (arg9 : Memref sig .tc .vmem S264x2048 .f32) (harg9 : arg9.IsWhole)
    (x0 : Vec F S1x256x2048 .f32) (x1 : Vec F S1x256x2048 .f32) (x2 : Vec F S1x8x2048 .f32) (x3 : Vec F S2048x256 .bf16)
    (x4 : Vec F S256x8192 .bf16) (x5 : Vec F S8192 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ s, owns (c : Thread nD τ) arg9 fullShare s)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out6 x0 x1 x2 x3 x4 x5) ∗ (∃ s, owns (c : Thread nD τ) arg9 fullShare s)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (cover6 _)).trans ?_
    sl_unfold_run_names
    simp only [View.readCov_eq_canon']
    rfl
  · iexists _; iexists _; isplitr
    swap; · iexact H9
    ipureintro; rfl

end Cert.KernelIdeal.Hand

end
-- ==== Proof.KI.Data.lean ====
/-
  The proof data of the one pipelined region, and its body obligation.

  The program pads the token array along time on the host (three zero rows in front, five behind), re-lays the
  second-layer weights and the bias so that tap `w` of channel `d` sits at column `w · 2048 + d`, narrows the two
  weight arrays, and then runs the region on a 4 × 16 grid: point `(b, i)` works on rows `256 i … 256 i + 255` of
  batch `b`. Seven windows: the token block, the padded array's block at the same rows, the 8 padded rows that
  follow, the two weight arrays and the bias (fetched once), and the output block (written back at every point).

  After the body every input buffer holds its block as fetched, and the output buffer holds `out6` of the six
  input blocks. The padded array is read by two windows, which share it half and half. The region's invariant
  is the scratch buffer at some contents.
-/
import proofs.«137645_j51651276701955_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch contents after the eleven host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded array is 4104 rows long, not a multiple of 256, so its 256-row window is one whose last block
    could be cut at the array's end. No block the grid asks for is: blocks 0 … 15 end at row 4096. -/
theorem clip1_none : ∀ (t : Fin cfg0.N) (a : Fin 3), (cfg0.win 1).clip (cfg0.grid.coords t) a = none :=
  (by decide +kernel : ∀ (t : Fin grid0.N) (a : Fin 3), win0_1.clip (grid0.coords t) a = none)

/-- That window's block as its 256 × 2048 staging buffer holds it (nothing is left unfilled, `clip1_none`). -/
def blk1 (c : Dev nD) (t : Fin cfg0.N) : S1x256x2048.Idx → Elt F .f32 :=
  win0_1.fill (grid0.coords t) (fun _ => Scalar.ofBits .f32 0#32) (iblk m c 1 t)

/-! ## The proof data -/

/-- The proof data on core `c`: the arrays as the region finds them; after the body at point `t` each input's buffer
    at its block and the output's at `out6` of the input blocks; the invariant the scratch at some contents; the
    padded array shared half and half between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => blk1 m c t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (blk1 m c t) (iblk m c 2 t) (iblk m c 3 t) (iblk m c 4 t) (iblk m c 5 t)
  Φ _ := Pipeline.scopedRest spec0 c
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = blk1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = out6 (iblk m c 0 t) (blk1 m c t) (iblk m c 2 t) (iblk m c 3 t) (iblk m c 4 t) (iblk m c 5 t) := by dsimp only [dats]

/-! ## What the body finds -/

/-- An input window whose blocks tile its array holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-- The padded array's 256-row window is fetched at every point, and the fetch fills the whole buffer. -/
theorem before0_1 (c : Dev nD) (t : Fin cfg0.N) (d) : (dats m 0 c).before 1 t d = blk1 m c t := by
  rw [(dats m 0 c).before_fetched 1 t (fetch0_1 t) d]
  unfold Dat.fetched Dat.blockOf blk1 iblk
  rw [A_eq]
  exact Pipeline.fill_of_clip_none (cfg := cfg0) 1 _ (clip1_none t) _ _ _

/-- The output's buffer is fresh at every point: every point writes it back. -/
theorem before0_6 (c : Dev nD) (t : Fin cfg0.N) (d) : (dats m 0 c).before 6 t d = d :=
  (dats m 0 c).before_out_reset 6 rfl t (by
    by_cases h0 : t.val = 0
    · exact .inl h0
    · exact .inr ⟨h0, flush0_6 _⟩) d

end Cert.KernelIdeal.Hand

end
-- ==== Proof.KI.Oblig.lean ====
/-
  The body obligation of the region, at a generic grid point.

  At point `t` the body is called with each input buffer holding its block (`before0_W`), the output buffer and the
  scratch holding anything. It leaves the inputs as found and the output at `out6` of the six blocks, which is
  what the proof data says the buffers hold after the body; the scratch goes back into the invariant at whatever it
  now holds. The padded array's 256-row window is stated on the part of its buffer a fetch fills, which for every
  point of the grid is the whole buffer.
-/
import proofs.«137645_j51651276701955_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the scratch comes
    out of the invariant and goes back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    show (dats m 0 c).Φ t.castSucc = Pipeline.scopedRest spec0 c from rfl, scopedRest0_eq]
  iintro ⟨⟨%fs, HS⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ _ _
    (iblk m c 0 t) (blk1 m c t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  simp only [owns_whole_eq]
  isplitl [HS]
  · iexists fs; iexists fs; isplitr; · ipureintro; rfl
    iexact HS
  iintro ⟨H0, H1, H2, H3, H4, H5, H6, ⟨%s, %f, -, HS⟩⟩
  isplitl [HS]
  · iexists f; iexact HS
  isplitl [Ho]; · iexact Ho
  isplitl [H0]; · iexact H0
  isplitl [H1]
  · iexists (fun _ => Scalar.ofBits .f32 0#32)
    rw [show win0_1.cut (grid0.coords t) (blk1 m c t) = iblk m c 1 t from win0_1.cut_fill _ _ _]
    iexact H1
  isplitl [H2]; · iexact H2
  isplitl [H3]; · iexact H3
  isplitl [H4]; · iexact H4
  isplitl [H5]; · iexact H5
  iexact H6

/-- The library's body obligation, in the form that states a cut window on the part a fetch fills, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KI.Split.lean ====
/-
  How the buffers behind the kernel's windowed arrays are dealt among its seven windows.

  The windows read six distinct buffers: the token array (window 0), the padded array (windows 1 AND 2: its 256-row
  block at the point and the 8 rows after it), the two weight arrays and the bias (3, 4, 5), and the result (6).
  The padded array's full share is split into its left and right halves, one for each of its two windows; every
  other buffer goes whole to its one window.
-/
import proofs.«137645_j51651276701955_1_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The buffers behind the arrays, each whole at the full share at contents `V`, make the proof data's arrays at
    entry, for any proof data whose entry arrays are `V`'s and whose input shares are: the left half for window 1,
    the right half for window 2, the full share for windows 0, 3, 4 and 5. -/
theorem arrays_of_arrBufs {c : Dev nD} (dat : Dat τ (Elt F) Unit ℕ (UR sig nD τ) ℕ cfg0 c)
    (V : (b : Ref sig .tc) → Buf (Elt F) ((c : Thread nD τ).loc b))
    (hA : ∀ w, dat.A w = V (Pipeline.arrRef spec0 w))
    (hq0 : dat.q 0 = fullShare) (hq1 : dat.q 1 = fullShare.left) (hq2 : dat.q 2 = fullShare.right)
    (hq3 : dat.q 3 = fullShare) (hq4 : dat.q 4 = fullShare) (hq5 : dat.q 5 = fullShare) :
    (Pipeline.arrBufs spec0 c V : sProp 𝕄) ⊢ dat.arrays (dat.arrAt · 0) := by
  classical
  -- the share each window holds its array at: an input's own, the output's full
  have hs0 : dat.share 0 = fullShare := (show dat.share 0 = dat.q 0 from rfl).trans hq0
  have hs1 : dat.share 1 = fullShare.left := (show dat.share 1 = dat.q 1 from rfl).trans hq1
  have hs2 : dat.share 2 = fullShare.right := (show dat.share 2 = dat.q 2 from rfl).trans hq2
  have hs3 : dat.share 3 = fullShare := (show dat.share 3 = dat.q 3 from rfl).trans hq3
  have hs4 : dat.share 4 = fullShare := (show dat.share 4 = dat.q 4 from rfl).trans hq4
  have hs5 : dat.share 5 = fullShare := (show dat.share 5 = dat.q 5 from rfl).trans hq5
  have hs6 : dat.share 6 = fullShare := rfl
  -- the seven windows' arrays are six buffers: windows 1 and 2 have the padded array both
  have himg : Finset.univ.image (Pipeline.arrRef spec0)
      = [main_arg0, main_call0_v0, main_call0_v7, main_call0_v8, main_call0_v6, main_v0].toFinset := by decide
  unfold Dat.arrays Pipeline.arrBufs
  rw [bigSep_eq_bigSepL_of_eq _ himg (by decide), bigSep_W0]
  -- every array is a whole buffer, so each window's element set is all of it (windows 1 and 2 have one array,
  -- hence one element set: the rewrite for window 1 serves both)
  have e0 : (cfg0.win 0).arr.view.set = Finset.univ := (arr_whole0 0).set_eq_univ
  have e1 : (cfg0.win 1).arr.view.set = Finset.univ := (arr_whole0 1).set_eq_univ
  have e3 : (cfg0.win 3).arr.view.set = Finset.univ := (arr_whole0 3).set_eq_univ
  have e4 : (cfg0.win 4).arr.view.set = Finset.univ := (arr_whole0 4).set_eq_univ
  have e5 : (cfg0.win 5).arr.view.set = Finset.univ := (arr_whole0 5).set_eq_univ
  have e6 : (cfg0.win 6).arr.view.set = Finset.univ := (arr_whole0 6).set_eq_univ
  rw [hs0, hs1, hs2, hs3, hs4, hs5, hs6, e0, e1, e3, e4, e5, e6]
  beta_reduce
  -- before any write-back an array holds its entry contents, which are `V`'s
  rw [show dat.arrAt 0 0 = V (Pipeline.arrRef spec0 0) from hA 0, show dat.arrAt 1 0 = V (Pipeline.arrRef spec0 1) from hA 1,
    show dat.arrAt 2 0 = V (Pipeline.arrRef spec0 2) from hA 2, show dat.arrAt 3 0 = V (Pipeline.arrRef spec0 3) from hA 3,
    show dat.arrAt 4 0 = V (Pipeline.arrRef spec0 4) from hA 4, show dat.arrAt 5 0 = V (Pipeline.arrRef spec0 5) from hA 5,
    show dat.arrAt 6 0 = V (Pipeline.arrRef spec0 6) from hA 6]
  show (iprop((((c : Thread nD τ).loc main_arg0) ↦{fullShare} V main_arg0) ∗ (((c : Thread nD τ).loc main_call0_v0) ↦{fullShare} V main_call0_v0)
      ∗ (((c : Thread nD τ).loc main_call0_v7) ↦{fullShare} V main_call0_v7) ∗ (((c : Thread nD τ).loc main_call0_v8) ↦{fullShare} V main_call0_v8)
      ∗ (((c : Thread nD τ).loc main_call0_v6) ↦{fullShare} V main_call0_v6) ∗ (((c : Thread nD τ).loc main_v0) ↦{fullShare} V main_v0)) : sProp 𝕄) ⊢ _
  iintro ⟨H0, H12, H3, H4, H5, H6⟩
  -- the padded array's full share is its left half and its right half
  ihave H12 := (pointsTo_share (PosShare.mem_left_op_right fullShare)).1 $$ H12
  icases H12 with ⟨H1, H2⟩
  isplitl [H0]; · iexact H0
  isplitl [H1]; · iexact H1
  isplitl [H2]; · iexact H2
  isplitl [H3]; · iexact H3
  isplitl [H4]; · iexact H4
  isplitl [H5]; · iexact H5
  iexact H6

end Cert.KernelIdeal.Hand

end
-- ==== Proof.KI.Frame.lean ====
/-
  The run of the program and its frame.

  From any memory with zero semaphore counters, every weakly fair execution of the program terminates without a
  fault; each array a window stages ends at what the proof data computes (an input as the region found it, the
  result overwritten block by block by what the body left), and every other unscoped buffer as the region found it.
  The four argument arrays are never written: the token array is an input window's array, the other three bypass the
  region, and no host operation writes any of them.
-/
import proofs.«137645_j51651276701955_1_alg».proof.Proof.KI.Oblig
import proofs.«137645_j51651276701955_1_alg».proof.Proof.KI.Split
import proofs.«137645_j51651276701955_1_alg».proof.Proof.LibSharedFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: every weakly fair execution terminates, the windowed arrays end at the proof data's contents and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) winFacts₀0 cellOf_inj block_pos0 arr_whole0 stage_whole0 defs₀ Variants.none m ρ main
    (hbody := body_obligation m) (howed := fun _ _ => rfl) (V := V m) (hmain := hmain m Variants.none)
    (hsplit := fun c => arrays_of_arrBufs (dats m 0 c) (V m c) (A_eq m c) rfl rfl rfl rfl rfl rfl)
    (hin := fun _ => BI.Entails.refl _) (hout := fun _ => BI.Entails.refl _)

/-- info: 'Cert.KernelIdeal.Hand.run_main' depends on axioms: [propext, Classical.choice, Quot.sound] -/
#guard_msgs in #print axioms run_main

/-- The three arguments no window stages are unscoped and no window's array. -/
theorem arg1_rest : main_arg1 ∈ Pipeline.restRefs sig spec0 := Pipeline.mem_restRefs_of main_arg1 rfl (by decide)
theorem arg2_rest : main_arg2 ∈ Pipeline.restRefs sig spec0 := Pipeline.mem_restRefs_of main_arg2 rfl (by decide)
theorem arg3_rest : main_arg3 ∈ Pipeline.restRefs sig spec0 := Pipeline.mem_restRefs_of main_arg3 rfl (by decide)

/-- The frame: the program runs to the end and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).2 main_arg1 arg1_rest).trans (V_main_arg1 m c),
      ((h c).2 main_arg2 arg2_rest).trans (V_main_arg2 m c),
      ((h c).2 main_arg3 arg3_rest).trans (V_main_arg3 m c)⟩) (run_main m ρ)

end Cert.KernelIdeal.Hand

end
-- ==== Proof.Spec.lean ====
/-
  The result both programs compute, as ONE function of the four argument arrays on the extended reals.

  A per-token dynamic depthwise convolution over time: for batch `b`, time `t`, channel `d`,
    hid b t h   = silu (Σ_k x[b,t,k] · w1[k,h])                       -- the generator's hidden layer
    ker b t d w = Σ_h hid b t h · w2[h, 4·d + w] + b2[4·d + w]        -- the four taps generated for (t, d)
    out b t d   = silu (ker·0 · xp[t] + ker·1 · xp[t+1] + ker·2 · xp[t+2] + ker·3 · xp[t+3])
  where `xp` is `x` with three zero rows put in front along time (so tap `w` meets `x[b, t - 3 + w, d]`, and a
  zero before the sequence starts), and `silu a = a · logistic a`. The four products are added in the order written,
  from the left.
-/
import Idealize.ShloMosaic.PureOps.Ideal
import Idealize.ShloMosaic.Lib.ValueIdx

noncomputable section

namespace Cert.Spec

open Idealize.ShloMosaic Idealize.ShloMosaic.ValueIdx

/-- The shapes of the four arguments (and of the result, which has `x`'s). -/
abbrev SX : Shape := ⟨3, ![4, 4096, 2048]⟩
abbrev SW1 : Shape := ⟨2, ![2048, 256]⟩
abbrev SW2 : Shape := ⟨2, ![256, 8192]⟩
abbrev SB2 : Shape := ⟨1, ![8192]⟩

/-- `silu a = a · 1/(1 + e^(-a))` on the extended reals. -/
def silu (a : EReal) : EReal := a * Ideal.logistic a

/-- The generator's hidden unit `h` at token `(b, t)`. -/
def hid (x : FVec Ideal SX .f32) (w1 : FVec Ideal SW1 .f32) (b : Fin 4) (t : Fin 4096) (h : Fin 256) : EReal :=
  silu (∑ k : Fin 2048, x (ix3 b t k) * w1 (ix2 k h))

/-- Column `4·d + w` of the second layer: tap `w` of channel `d`. -/
def col (d : Fin 2048) (w : Fin 4) : Fin 8192 := ⟨4 * d.val + w.val, by have := d.isLt; have := w.isLt; omega⟩

/-- Tap `w` of the kernel generated for token `(b, t)` and channel `d`. -/
def ker (x : FVec Ideal SX .f32) (w1 : FVec Ideal SW1 .f32) (w2 : FVec Ideal SW2 .f32) (b2 : FVec Ideal SB2 .f32)
    (b : Fin 4) (t : Fin 4096) (d : Fin 2048) (w : Fin 4) : EReal :=
  (∑ h : Fin 256, hid x w1 b t h * w2 (ix2 h (col d w))) + b2 (ix1 (col d w))

/-- Row `r` of `x` padded by three zero rows in front along time (any `r`: zero outside rows 3 … 4098). -/
def xpad (x : FVec Ideal SX .f32) (b : Fin 4) (r : ℕ) (d : Fin 2048) : EReal :=
  if h : 3 ≤ r ∧ r < 4099 then x (ix3 b ⟨r - 3, by omega⟩ d) else 0

/-- The convolution before the final `silu`: the four taps against four consecutive padded rows, summed from the left. -/
def acc (x : FVec Ideal SX .f32) (w1 : FVec Ideal SW1 .f32) (w2 : FVec Ideal SW2 .f32) (b2 : FVec Ideal SB2 .f32)
    (b : Fin 4) (t : Fin 4096) (d : Fin 2048) : EReal :=
  ker x w1 w2 b2 b t d 0 * xpad x b (t.val + 0) d + ker x w1 w2 b2 b t d 1 * xpad x b (t.val + 1) d
    + ker x w1 w2 b2 b t d 2 * xpad x b (t.val + 2) d + ker x w1 w2 b2 b t d 3 * xpad x b (t.val + 3) d

/-- The result at `(b, t, d)`. -/
def outAt (x : FVec Ideal SX .f32) (w1 : FVec Ideal SW1 .f32) (w2 : FVec Ideal SW2 .f32) (b2 : FVec Ideal SB2 .f32)
    (b : Fin 4) (t : Fin 4096) (d : Fin 2048) : EReal :=
  silu (acc x w1 w2 b2 b t d)

/-- The result array. -/
def G (x : FVec Ideal SX .f32) (w1 : FVec Ideal SW1 .f32) (w2 : FVec Ideal SW2 .f32) (b2 : FVec Ideal SB2 .f32) :
    FVec Ideal SX .f32 :=
  fun i => outAt x w1 w2 b2 ⟨(i 0).val, (i 0).isLt⟩ ⟨(i 1).val, (i 1).isLt⟩ ⟨(i 2).val, (i 2).isLt⟩

theorem G_ix3 (x : FVec Ideal SX .f32) (w1 : FVec Ideal SW1 .f32) (w2 : FVec Ideal SW2 .f32) (b2 : FVec Ideal SB2 .f32)
    (b : Fin 4) (t : Fin 4096) (d : Fin 2048) : G x w1 w2 b2 (ix3 b t d) = outAt x w1 w2 b2 b t d := rfl

end Cert.Spec

end
-- ==== Proof.KI.PayAt.lean ====
/-
  The body's output payload read at an index, on the extended reals.

  Over the six input blocks of a grid point — the token block `x0`, the padded array's 256 rows `x1` and the 8 rows
  after them `x2`, the two weight blocks `x3`, `x4` and the bias `x5` — the value stored at row `r`, channel `d` of the
  output block is `silu` of the four taps against scratch rows `r, r+1, r+2, r+3`, where scratch row `r'` is row `r'` of
  `x1` for `r' < 256` and row `r' - 256` of `x2` after that, and tap `w` is column `w · 2048 + d` of
  `silu (x0 · x3) · x4 + x5`.
-/
import proofs.«137645_j51651276701955_1_alg».proof.Proof.KI.Body
import proofs.«137645_j51651276701955_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-- Column `w · 2048 + d` of the re-laid second layer: tap `w` of channel `d`. -/
def pcol (w : Fin 4) (d : Fin 2048) : Fin 8192 := ⟨w.val * 2048 + d.val, by have := w.isLt; have := d.isLt; omega⟩

/-- Row `r'` of the scratch after the two copies: `x1`'s row below 256, `x2`'s row `r' - 256` from there on. -/
def srow (x1 : Vec Ideal S1x256x2048 .f32) (x2 : Vec Ideal S1x8x2048 .f32) (r' : ℕ) (d : Fin 2048) : EReal :=
  if h : r' < 256 then x1 (ix3 0 ⟨r', h⟩ d)
  else if h2 : r' < 264 then x2 (ix3 0 ⟨r' - 256, by omega⟩ d) else 0

/-- Tap `w` of channel `d` generated for row `r` of the block. -/
def btap (x0 : Vec Ideal S1x256x2048 .f32) (x3 : Vec Ideal S2048x256 .bf16) (x4 : Vec Ideal S256x8192 .bf16) (x5 : Vec Ideal S8192 .f32)
    (r : Fin 256) (d : Fin 2048) (w : Fin 4) : EReal :=
  (∑ h : Fin 256, Cert.Spec.silu (∑ k : Fin 2048, x0 (ix3 0 r k) * x3 (ix2 k h)) * x4 (ix2 h (pcol w d))) + x5 (ix1 (pcol w d))

namespace PayAt

/-- The zero offsets of a whole block, rank 3, 2 and 1, as the constant function. -/
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A read through the whole-block rectangle finds the block itself: the token and padded-row blocks, the following rows,
    the two weight blocks and the bias. -/
theorem ld_rTok (x : Vec Ideal S1x256x2048 .f32) : View.ld x rTok = x :=
  View.ld_unit_zero (S := S1x256x2048) hz3 _ x
theorem ld_rHalo (x : Vec Ideal S1x8x2048 .f32) : View.ld x rHalo = x :=
  View.ld_unit_zero (S := S1x8x2048) hz3 _ x
theorem ld_rW1 (x : Vec Ideal S2048x256 .bf16) : View.ld x rW1 = x :=
  View.ld_unit_zero (S := S2048x256) hz2 _ x
theorem ld_rW2 (x : Vec Ideal S256x8192 .bf16) : View.ld x rW2 = x :=
  View.ld_unit_zero (S := S256x8192) hz2 _ x
theorem ld_rB2 (x : Vec Ideal S8192 .f32) : View.ld x rB2 = x :=
  View.ld_unit_zero (S := S8192) hz1 _ x

/-! ## The two products read at an index -/

/-- The first product's operand indices: the left operand is read at (row, shared), the right at (shared, column). -/
theorem dot1_lhs_0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem dot1_lhs_1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem dot1_rhs_0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem dot1_rhs_1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- The first product into a zero accumulator, at row `r`, column `h`: the sum over the 2048 shared coordinates. -/
theorem matmul1_apply (a : FVec Ideal S256x2048 .bf16) (b : FVec Ideal S2048x256 .bf16) (r : Fin 256) (h : Fin 256) :
    matmul dot_S256x2048_S2048x256_S256x256_1_0_0_1_n_n none a b (constant (F := Ideal) S256x256 .f32 0x00000000#32) (ix2 r h)
      = ∑ k : Fin 2048, a (ix2 r k) * b (ix2 k h) := by
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 r h) ((contrEquiv1 dot_S256x2048_S2048x256_S256x256_1_0_0_1_n_n 2048 rfl rfl).symm k) = ix2 r k := funext fun a => Fin.ext (by
    match a with
    | ⟨0, _⟩ => exact dot1_lhs_0 _ _
    | ⟨1, _⟩ => exact (dot1_lhs_1 _ _).trans hk)
  have er : dot_S256x2048_S2048x256_S256x256_1_0_0_1_n_n.rhsIdx (ix2 r h) ((contrEquiv1 dot_S256x2048_S2048x256_S256x256_1_0_0_1_n_n 2048 rfl rfl).symm k) = ix2 k h := funext fun a => Fin.ext (by
    match a with
    | ⟨0, _⟩ => exact (dot1_rhs_0 _ _).trans hk
    | ⟨1, _⟩ => exact dot1_rhs_1 _ _)
  rw [el, er]

/-- The second product's operand indices, likewise. -/
theorem dot2_lhs_0 (i : S256x8192.Idx) (q : dot_S256x256_S256x8192_S256x8192_1_0_0_1_n_n.contr.Idx) :
    (dot_S256x256_S256x8192_S256x8192_1_0_0_1_n_n.lhsIdx i q 0).val = (i 0).val := by
  unfold DotDims.lhsIdx
  rw [dif_neg (show ¬(0 : Fin S256x256.rank) ∈ dot_S256x256_S256x8192_S256x8192_1_0_0_1_n_n.lhsBatch by decide), dif_pos (show (0 : Fin S256x256.rank) ∈ dot_S256x256_S256x8192_S256x8192_1_0_0_1_n_n.lhsNonContracting by decide)]
  rfl
theorem dot2_lhs_1 (i : S256x8192.Idx) (q : dot_S256x256_S256x8192_S256x8192_1_0_0_1_n_n.contr.Idx) :
    (dot_S256x256_S256x8192_S256x8192_1_0_0_1_n_n.lhsIdx i q 1).val = (q ⟨0, by decide⟩).val :=
  dot_S256x256_S256x8192_S256x8192_1_0_0_1_n_n.lhsIdx_val_of_single rfl i q
theorem dot2_rhs_0 (i : S256x8192.Idx) (q : dot_S256x256_S256x8192_S256x8192_1_0_0_1_n_n.contr.Idx) :
    (dot_S256x256_S256x8192_S256x8192_1_0_0_1_n_n.rhsIdx i q 0).val = (q ⟨0, by decide⟩).val :=
  dot_S256x256_S256x8192_S256x8192_1_0_0_1_n_n.rhsIdx_val_of_single rfl i q
theorem dot2_rhs_1 (i : S256x8192.Idx) (q : dot_S256x256_S256x8192_S256x8192_1_0_0_1_n_n.contr.Idx) :
    (dot_S256x256_S256x8192_S256x8192_1_0_0_1_n_n.rhsIdx i q 1).val = (i 1).val := by
  unfold DotDims.rhsIdx
  rw [dif_neg (show ¬(1 : Fin S256x8192.rank) ∈ dot_S256x256_S256x8192_S256x8192_1_0_0_1_n_n.rhsBatch by decide), dif_pos (show (1 : Fin S256x8192.rank) ∈ dot_S256x256_S256x8192_S256x8192_1_0_0_1_n_n.rhsNonContracting by decide)]
  rfl

/-- The second product into a zero accumulator, at row `r`, column `c`: the sum over the 256 hidden units. -/
theorem matmul2_apply (a : FVec Ideal S256x256 .bf16) (b : FVec Ideal S256x8192 .bf16) (r : Fin 256) (c : Fin 8192) :
    matmul dot_S256x256_S256x8192_S256x8192_1_0_0_1_n_n none a b (constant (F := Ideal) S256x8192 .f32 0x00000000#32) (ix2 r c)
      = ∑ h : Fin 256, a (ix2 r h) * b (ix2 h c) := by
  simp only [matmul]
  rw [Ideal.matmul_constant_zero_apply, ← Equiv.sum_comp (contrEquiv1 dot_S256x256_S256x8192_S256x8192_1_0_0_1_n_n 256 rfl rfl).symm]
  refine Finset.sum_congr rfl fun k _ => ?_
  have hk := contrEquiv1_symm_val dot_S256x256_S256x8192_S256x8192_1_0_0_1_n_n 256 rfl rfl k
  have el : dot_S256x256_S256x8192_S256x8192_1_0_0_1_n_n.lhsIdx (ix2 r c) ((contrEquiv1 dot_S256x256_S256x8192_S256x8192_1_0_0_1_n_n 256 rfl rfl).symm k) = ix2 r k := funext fun a => Fin.ext (by
    match a with
    | ⟨0, _⟩ => exact dot2_lhs_0 _ _
    | ⟨1, _⟩ => exact (dot2_lhs_1 _ _).trans hk)
  have er : dot_S256x256_S256x8192_S256x8192_1_0_0_1_n_n.rhsIdx (ix2 r c) ((contrEquiv1 dot_S256x256_S256x8192_S256x8192_1_0_0_1_n_n 256 rfl rfl).symm k) = ix2 k c := funext fun a => Fin.ext (by
    match a with
    | ⟨0, _⟩ => exact (dot2_rhs_0 _ _).trans hk
    | ⟨1, _⟩ => exact dot2_rhs_1 _ _)
  rw [el, er]

/-! ## The layout steps read at an index -/

/-- A 1 × 256 × 2048 block viewed 256 × 2048 reads `(0, r, k)` at `(r, k)`. -/
theorem cast_tok_apply (v : FVec Ideal S1x256x2048 .f32) (r : Fin 256) (k : Fin 2048) :
    shapeCast S256x2048 v shapeCasts_S1x256x2048_S256x2048 (ix2 r k) = v (ix3 0 r k) := by
  refine shapeCast_apply v _ (ix2 r k) (ix3 0 r k) ?_
  rw [Shape.rowMajor_val_three, Shape.rowMajor_val_two]
  show ((0 : ℕ) * 256 + r.val) * 2048 + k.val = r.val * 2048 + k.val
  omega

/-- A 1 × 8 × 2048 block viewed 8 × 2048 reads `(0, r, k)` at `(r, k)`. -/
theorem cast_halo_apply (v : FVec Ideal S1x8x2048 .f32) (r : Fin 8) (k : Fin 2048) :
    shapeCast S8x2048 v shapeCasts_S1x8x2048_S8x2048 (ix2 r k) = v (ix3 0 r k) := by
  refine shapeCast_apply v _ (ix2 r k) (ix3 0 r k) ?_
  rw [Shape.rowMajor_val_three, Shape.rowMajor_val_two]
  show ((0 : ℕ) * 8 + r.val) * 2048 + k.val = r.val * 2048 + k.val
  omega

/-- The bias viewed as one row and repeated down the 256 rows reads entry `c` at `(r, c)`. -/
theorem bias_apply (v : FVec Ideal S8192 .f32) (r : Fin 256) (c : Fin 8192) :
    broadcastTo S256x8192 (shapeCast S1x8192 v shapeCasts_S8192_S1x8192) broadcasts_S1x8192_S256x8192 (ix2 r c) = v (ix1 c) := by
  refine (broadcastTo_apply _ broadcasts_S1x8192_S256x8192 (ix2 r c) (ix2 (0 : Fin 1) c) ?_).trans ?_
  · intro a
    match a with
    | ⟨0, _⟩ => rfl
    | ⟨1, _⟩ => rfl
  · refine shapeCast_apply v _ (ix2 (0 : Fin 1) c) (ix1 c) ?_
    rw [Shape.rowMajor_val_one, Shape.rowMajor_val_two]
    show c.val = (0 : ℕ) * 8192 + c.val
    omega

/-- `a · logistic a`, entry by entry, is `silu` of the entry. -/
theorem silu_vec_apply {s : Shape} (a : FVec Ideal s .f32) (i : s.Idx) : mulf a (logistic a) i = Cert.Spec.silu (a i) := rfl

/-- The 256 × 8192 array of generated taps at row `r`, column `c`. -/
theorem pay2_apply (v0 : Vec Ideal S1x256x2048 .f32) (v3 : Vec Ideal S2048x256 .bf16) (v9 : Vec Ideal S256x8192 .bf16) (v12 : Vec Ideal S8192 .f32)
    (r : Fin 256) (c : Fin 8192) :
    k0_pay2 (F := Ideal) v0 v3 v9 v12 (ix2 r c)
      = (∑ h : Fin 256, Cert.Spec.silu (∑ k : Fin 2048, v0 (ix3 0 r k) * v3 (ix2 k h)) * v9 (ix2 h c)) + v12 (ix1 c) := by
  unfold k0_pay2
  simp only [shapeCast_self]
  rw [addf_apply, matmul2_apply, bias_apply]
  refine congrArg (· + v12 (ix1 c)) (Finset.sum_congr rfl fun h _ => ?_)
  rw [truncf_apply, silu_vec_apply, matmul1_apply]
  refine congrArg (fun t => Cert.Spec.silu t * v9 (ix2 h c)) (Finset.sum_congr rfl fun k _ => ?_)
  rw [truncf_apply, cast_tok_apply]

/-! ## The scratch after the two copies -/

/-- The first copy's payload: the 256 rows. -/
theorem pay3_apply (v : Vec Ideal S1x256x2048 .f32) (r : Fin 256) (k : Fin 2048) :
    k0_pay3 (F := Ideal) v (ix2 r k) = v (ix3 0 r k) := by
  unfold k0_pay3
  simp only [shapeCast_self]
  exact cast_tok_apply v r k

/-- The second copy's payload: the 8 rows that follow. -/
theorem pay4_apply (v : Vec Ideal S1x8x2048 .f32) (r : Fin 8) (k : Fin 2048) :
    k0_pay4 (F := Ideal) v (ix2 r k) = v (ix3 0 r k) := by
  unfold k0_pay4
  simp only [shapeCast_self]
  exact cast_halo_apply v r k

/-- A scratch row below 256 is that row of the first block. -/
theorem srow_lo (x1 : Vec Ideal S1x256x2048 .f32) (x2 : Vec Ideal S1x8x2048 .f32) (n : ℕ) (d d' : Fin 2048) (a : Fin 256)
    (hn : n = a.val) (hd : d.val = d'.val) : srow x1 x2 n d = x1 (ix3 0 a d') := by
  have hlt : n < 256 := by have := a.isLt; omega
  obtain rfl : d = d' := Fin.ext hd
  unfold srow
  rw [dif_pos hlt]
  exact congrArg (fun t => x1 (ix3 0 t d)) (Fin.ext hn)

/-- A scratch row from 256 on is that row, less 256, of the second block. -/
theorem srow_hi (x1 : Vec Ideal S1x256x2048 .f32) (x2 : Vec Ideal S1x8x2048 .f32) (n : ℕ) (d d' : Fin 2048) (a : Fin 8)
    (hn : n = 256 + a.val) (hd : d.val = d'.val) : srow x1 x2 n d = x2 (ix3 0 a d') := by
  have hge : ¬ n < 256 := by omega
  have hlt : n < 264 := by have := a.isLt; omega
  obtain rfl : d = d' := Fin.ext hd
  unfold srow
  rw [dif_neg hge, dif_pos hlt]
  exact congrArg (fun t => x2 (ix3 0 t d)) (Fin.ext (by show n - 256 = a.val; omega))

/-- The scratch rows depend on the row number and the channel's value only. -/
theorem srow_congr (x1 : Vec Ideal S1x256x2048 .f32) (x2 : Vec Ideal S1x8x2048 .f32) (n n' : ℕ) (d d' : Fin 2048)
    (hn : n = n') (hd : d.val = d'.val) : srow x1 x2 n d = srow x1 x2 n' d' := by
  obtain rfl : d = d' := Fin.ext hd
  rw [hn]

/-- The two copies cover the 264 rows. -/
theorem scr_cover (x1 : Vec Ideal S1x256x2048 .f32) (x2 : Vec Ideal S1x8x2048 .f32) (y : S264x2048.Idx) :
    ∃ p ∈ scrL (F := Ideal) x1 x2, y ∈ p.1.set := by
  have h0 : (y 0).val < 264 := idx2_lt0 y
  have h1 : (y 1).val < 2048 := idx2_lt1 y
  by_cases hy : (y 0).val < 256
  · refine ⟨⟨rS0, k0_pay3 (View.ld x1 rTok)⟩, by simp [scrL], ?_⟩
    rw [Rect.mem_set_unit]
    intro a
    match a with
    | ⟨0, _⟩ => exact ⟨Nat.zero_le _, by show (y 0).val < 0 + 256; omega⟩
    | ⟨1, _⟩ => exact ⟨Nat.zero_le _, by show (y 1).val < 0 + 2048; omega⟩
  · refine ⟨⟨rSH, k0_pay4 (View.ld x2 rHalo)⟩, by simp [scrL], ?_⟩
    rw [Rect.mem_set_unit]
    intro a
    match a with
    | ⟨0, _⟩ => exact ⟨by show 256 ≤ (y 0).val; omega, by show (y 0).val < 256 + 8; omega⟩
    | ⟨1, _⟩ => exact ⟨Nat.zero_le _, by show (y 1).val < 0 + 2048; omega⟩

/-- The scratch after the two copies, read at row `y 0`, channel `y 1`. -/
theorem scr_apply (x1 : Vec Ideal S1x256x2048 .f32) (x2 : Vec Ideal S1x8x2048 .f32) (y : S264x2048.Idx) :
    View.canon (scrL (F := Ideal) x1 x2) y = srow x1 x2 (y 0).val ⟨(y 1).val, idx2_lt1 y⟩ := by
  refine View.canon_apply_of_pieces (fun y : S264x2048.Idx => srow x1 x2 (y 0).val ⟨(y 1).val, idx2_lt1 y⟩) (scrL x1 x2) ?_ y (scr_cover x1 x2 y)
  intro p hp
  simp only [scrL, List.mem_cons, List.not_mem_nil, or_false] at hp
  rcases hp with rfl | rfl
  · intro x
    obtain ⟨a, b, rfl⟩ : ∃ (a : Fin 8) (b : Fin 2048), x = ix2 a b := ⟨x 0, x 1, eq_ix2 x⟩
    show k0_pay4 (View.ld x2 rHalo) (ix2 a b) = _
    rw [ld_rHalo, pay4_apply]
    exact (srow_hi x1 x2 _ _ b a (by show 256 + 1 * a.val = 256 + a.val; omega) (by show 0 + 1 * b.val = b.val; omega)).symm
  · intro x
    obtain ⟨a, b, rfl⟩ : ∃ (a : Fin 256) (b : Fin 2048), x = ix2 a b := ⟨x 0, x 1, eq_ix2 x⟩
    show k0_pay3 (View.ld x1 rTok) (ix2 a b) = _
    rw [ld_rTok, pay3_apply]
    exact (srow_lo x1 x2 _ _ b a (by show 0 + 1 * a.val = a.val; omega) (by show 0 + 1 * b.val = b.val; omega)).symm

/-- A read of 256 scratch rows starting at row `w` finds scratch row `r + w` at its row `r`: from row 0, -/
theorem scrRows0_apply (x1 : Vec Ideal S1x256x2048 .f32) (x2 : Vec Ideal S1x8x2048 .f32) (r : Fin 256) (d : Fin 2048) :
    scrRows (F := Ideal) rS0 x1 x2 (ix2 r d) = srow x1 x2 (r.val + 0) d := by
  unfold scrRows
  rw [scr_apply]
  exact srow_congr x1 x2 _ _ _ _ (by show 0 + 1 * r.val = r.val + 0; omega) (by show 0 + 1 * d.val = d.val; omega)
/-- The same from row 1, -/
theorem scrRows1_apply (x1 : Vec Ideal S1x256x2048 .f32) (x2 : Vec Ideal S1x8x2048 .f32) (r : Fin 256) (d : Fin 2048) :
    scrRows (F := Ideal) rS1 x1 x2 (ix2 r d) = srow x1 x2 (r.val + 1) d := by
  unfold scrRows
  rw [scr_apply]
  exact srow_congr x1 x2 _ _ _ _ (by show 1 + 1 * r.val = r.val + 1; omega) (by show 0 + 1 * d.val = d.val; omega)
/-- from row 2, -/
theorem scrRows2_apply (x1 : Vec Ideal S1x256x2048 .f32) (x2 : Vec Ideal S1x8x2048 .f32) (r : Fin 256) (d : Fin 2048) :
    scrRows (F := Ideal) rS2 x1 x2 (ix2 r d) = srow x1 x2 (r.val + 2) d := by
  unfold scrRows
  rw [scr_apply]
  exact srow_congr x1 x2 _ _ _ _ (by show 2 + 1 * r.val = r.val + 2; omega) (by show 0 + 1 * d.val = d.val; omega)
/-- and from row 3. -/
theorem scrRows3_apply (x1 : Vec Ideal S1x256x2048 .f32) (x2 : Vec Ideal S1x8x2048 .f32) (r : Fin 256) (d : Fin 2048) :
    scrRows (F := Ideal) rS3 x1 x2 (ix2 r d) = srow x1 x2 (r.val + 3) d := by
  unfold scrRows
  rw [scr_apply]
  exact srow_congr x1 x2 _ _ _ _ (by show 3 + 1 * r.val = r.val + 3; omega) (by show 0 + 1 * d.val = d.val; omega)

/-! ## The four taps and the sum -/

/-- The slice of 2048 columns starting at column `w · 2048` reads column `w · 2048 + d` at `d`: for `w = 0`. -/
theorem slice0_apply (v : FVec Ideal S256x8192 .f32) (r : Fin 256) (d : Fin 2048) :
    extractStridedSlice S256x2048 ![0, 0] v slices_S256x8192_o0_0_S256x2048 (ix2 r d) = v (ix2 r (pcol 0 d)) := by
  refine extractStridedSlice_apply _ v _ (ix2 r d) (ix2 r (pcol 0 d)) ?_
  intro a
  match a with
  | ⟨0, _⟩ => show r.val = 0 + r.val; omega
  | ⟨1, _⟩ => show 0 * 2048 + d.val = 0 + d.val; omega
/-- The same for `w = 1`, -/
theorem slice1_apply (v : FVec Ideal S256x8192 .f32) (r : Fin 256) (d : Fin 2048) :
    extractStridedSlice S256x2048 ![0, 2048] v slices_S256x8192_o0_2048_S256x2048 (ix2 r d) = v (ix2 r (pcol 1 d)) := by
  refine extractStridedSlice_apply _ v _ (ix2 r d) (ix2 r (pcol 1 d)) ?_
  intro a
  match a with
  | ⟨0, _⟩ => show r.val = 0 + r.val; omega
  | ⟨1, _⟩ => show 1 * 2048 + d.val = 2048 + d.val; omega
/-- `w = 2`, -/
theorem slice2_apply (v : FVec Ideal S256x8192 .f32) (r : Fin 256) (d : Fin 2048) :
    extractStridedSlice S256x2048 ![0, 4096] v slices_S256x8192_o0_4096_S256x2048 (ix2 r d) = v (ix2 r (pcol 2 d)) := by
  refine extractStridedSlice_apply _ v _ (ix2 r d) (ix2 r (pcol 2 d)) ?_
  intro a
  match a with
  | ⟨0, _⟩ => show r.val = 0 + r.val; omega
  | ⟨1, _⟩ => show 2 * 2048 + d.val = 4096 + d.val; omega
/-- and `w = 3`. -/
theorem slice3_apply (v : FVec Ideal S256x8192 .f32) (r : Fin 256) (d : Fin 2048) :
    extractStridedSlice S256x2048 ![0, 6144] v slices_S256x8192_o0_6144_S256x2048 (ix2 r d) = v (ix2 r (pcol 3 d)) := by
  refine extractStridedSlice_apply _ v _ (ix2 r d) (ix2 r (pcol 3 d)) ?_
  intro a
  match a with
  | ⟨0, _⟩ => show r.val = 0 + r.val; omega
  | ⟨1, _⟩ => show 3 * 2048 + d.val = 6144 + d.val; omega

/-- The generated taps at column `w · 2048 + d`: tap `w` of channel `d`. -/
theorem pay2_btap (v0 : Vec Ideal S1x256x2048 .f32) (v3 : Vec Ideal S2048x256 .bf16) (v9 : Vec Ideal S256x8192 .bf16) (v12 : Vec Ideal S8192 .f32)
    (r : Fin 256) (d : Fin 2048) (w : Fin 4) :
    k0_pay2 (F := Ideal) v0 v3 v9 v12 (ix2 r (pcol w d)) = btap v0 v3 v9 v12 r d w :=
  pay2_apply v0 v3 v9 v12 r (pcol w d)

/-- The accumulator after the first tap: zero plus tap 0 against the rows read at offset 0. -/
theorem pay5_apply (v0 : Vec Ideal S1x256x2048 .f32) (v3 : Vec Ideal S2048x256 .bf16) (v9 : Vec Ideal S256x8192 .bf16) (v12 : Vec Ideal S8192 .f32)
    (v29 : Vec Ideal S256x2048 .f32) (r : Fin 256) (d : Fin 2048) :
    k0_pay5 (F := Ideal) v0 v3 v9 v12 v29 (ix2 r d) = btap v0 v3 v9 v12 r d 0 * v29 (ix2 r d) := by
  unfold k0_pay5
  rw [addf_apply, broadcast_apply, mulf_apply, slice0_apply, pay2_btap]
  show Ideal.ofBits .f32 0x00000000#32 + _ = _
  rw [Ideal.ofBits_zero_f32, zero_add]

/-- The second tap's slice. -/
theorem pay6_apply (v0 : Vec Ideal S1x256x2048 .f32) (v3 : Vec Ideal S2048x256 .bf16) (v9 : Vec Ideal S256x8192 .bf16) (v12 : Vec Ideal S8192 .f32)
    (r : Fin 256) (d : Fin 2048) :
    k0_pay6 (F := Ideal) v0 v3 v9 v12 (ix2 r d) = btap v0 v3 v9 v12 r d 1 := by
  unfold k0_pay6
  rw [slice1_apply, pay2_btap]

/-- The stored value from the accumulator after tap 0, the three remaining slices and the three remaining reads. -/
theorem pay1_apply (v16 : FVec Ideal S256x8192 .f32) (v31 v32 : FVec Ideal S256x2048 .f32) (v33 v37 v41 : Vec Ideal S256x2048 .f32)
    (r : Fin 256) (d : Fin 2048) :
    k0_pay1 (F := Ideal) v16 v31 v32 v33 v37 v41 (ix3 0 r d)
      = Cert.Spec.silu (v31 (ix2 r d) + v32 (ix2 r d) * v33 (ix2 r d) + v16 (ix2 r (pcol 2 d)) * v37 (ix2 r d)
          + v16 (ix2 r (pcol 3 d)) * v41 (ix2 r d)) := by
  unfold k0_pay1
  refine (shapeCast_apply _ shapeCasts_S256x2048_S1x256x2048 (ix3 0 r d) (ix2 r d) ?_).trans ?_
  · rw [Shape.rowMajor_val_three, Shape.rowMajor_val_two]
    show r.val * 2048 + d.val = ((0 : ℕ) * 256 + r.val) * 2048 + d.val
    omega
  · rw [silu_vec_apply, addf_apply, addf_apply, addf_apply, mulf_apply, mulf_apply, mulf_apply, slice2_apply, slice3_apply]

end PayAt

open PayAt in
/-- The output payload at row `r`, channel `d`. -/
theorem outPay_apply (x0 : Vec Ideal S1x256x2048 .f32) (x1 : Vec Ideal S1x256x2048 .f32) (x2 : Vec Ideal S1x8x2048 .f32)
    (x3 : Vec Ideal S2048x256 .bf16) (x4 : Vec Ideal S256x8192 .bf16) (x5 : Vec Ideal S8192 .f32) (r : Fin 256) (d : Fin 2048) :
    outPay (F := Ideal) x0 x1 x2 x3 x4 x5 (ix3 0 r d)
      = Cert.Spec.silu (btap x0 x3 x4 x5 r d 0 * srow x1 x2 (r.val + 0) d + btap x0 x3 x4 x5 r d 1 * srow x1 x2 (r.val + 1) d
          + btap x0 x3 x4 x5 r d 2 * srow x1 x2 (r.val + 2) d + btap x0 x3 x4 x5 r d 3 * srow x1 x2 (r.val + 3) d) := by
  unfold outPay taps
  rw [ld_rTok, ld_rW1, ld_rW2, ld_rB2]
  rw [pay1_apply, pay5_apply, pay6_apply, pay2_btap, pay2_btap, scrRows0_apply, scrRows1_apply, scrRows2_apply, scrRows3_apply]

end Cert.KernelIdeal.Hand

end
-- ==== Proof.KI.HostVals.lean ====
/-
  What the region finds in the four arrays the host operations write, read at an index (on the extended reals).

  Before the region the program pads the token array along time (three zero rows in front, five behind: 4104 rows),
  narrows the first-layer weights (the identity on the extended reals), re-lays the second-layer weights
  [256, 2048·4] → [256, 2048, 4] → [256, 4, 2048] → [256, 4·2048] and narrows them, and re-lays the bias
  [2048·4] → [2048, 4] → [4, 2048] → [4·2048]. So column `w · 2048 + d` of the re-laid arrays is column `4 d + w`
  of the arguments.
-/
import proofs.«137645_j51651276701955_1_alg».proof.Proof.KI.Data
import proofs.«137645_j51651276701955_1_alg».proof.Proof.KI.PayAt
import proofs.«137645_j51651276701955_1_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-! ## The four arrays as terms of the arguments -/

/-- The padded array is the pad of the token array by the converted integer zero. -/
theorem V_pad_term (c : Dev nD) :
    (V m c main_call0_v0 : S4x4104x2048.Idx → EReal)
      = pad S4x4104x2048 ![0, 3, 0] ![0, 5, 0] ![0, 0, 0] (m ((c : Thread nD τ).loc main_arg0) : S4x4096x2048.Idx → EReal)
          (sitofp .f32 (constantI S_ 32 0#32) : FVec Ideal S_ .f32) pads_S4x4096x2048_S4x4104x2048_000_350_000 h_S_ := by
  dsimp only [V, hostOps0]; after_results; rfl

/-- The narrowed first-layer weights are the narrowing of the argument. -/
theorem V_w1_term (c : Dev nD) :
    (V m c main_call0_v7 : S2048x256.Idx → EReal)
      = (truncf .bf16 (m ((c : Thread nD τ).loc main_arg1) : FVec Ideal S2048x256 .f32) bitsLt_bf16_f32 : FVec Ideal S2048x256 .bf16) := by
  dsimp only [V, hostOps0]; after_results; rfl

/-- The re-laid second layer: regroup the columns as 2048 × 4, exchange the two groups, flatten, narrow. -/
theorem V_w2_term (c : Dev nD) :
    (V m c main_call0_v8 : S256x8192.Idx → EReal)
      = (truncf .bf16 (shapeCast S256x8192 (transpose S256x4x2048 [0, 2, 1]
          (shapeCast S256x2048x4 (m ((c : Thread nD τ).loc main_arg2) : FVec Ideal S256x8192 .f32) shapeCasts_S256x8192_S256x2048x4)
          transposes_S256x2048x4_S256x4x2048_0_2_1) shapeCasts_S256x4x2048_S256x8192 : FVec Ideal S256x8192 .f32) bitsLt_bf16_f32 : FVec Ideal S256x8192 .bf16) := by
  dsimp only [V, hostOps0]; after_results; rfl

/-- The re-laid bias: regroup the entries as 2048 × 4, exchange the two groups, flatten. -/
theorem V_b2_term (c : Dev nD) :
    (V m c main_call0_v6 : S8192.Idx → EReal)
      = shapeCast S8192 (transpose S4x2048 [1, 0]
          (shapeCast S2048x4 (m ((c : Thread nD τ).loc main_arg3) : FVec Ideal S8192 .f32) shapeCasts_S8192_S2048x4)
          transposes_S2048x4_S4x2048_1_0) shapeCasts_S4x2048_S8192 := by
  dsimp only [V, hostOps0]; after_results; rfl

/-! ## The pad read at an index -/

/-- The token array padded by three rows in front and five behind, at row r: row r - 3 on rows 3 … 4098, zero elsewhere. -/
theorem pad_read (x : S4x4096x2048.Idx → EReal) (b : Fin 4) (r : Fin 4104) (d : Fin 2048) :
    pad S4x4104x2048 ![0, 3, 0] ![0, 5, 0] ![0, 0, 0] x (sitofp .f32 (constantI S_ 32 0#32) : FVec Ideal S_ .f32)
        pads_S4x4096x2048_S4x4104x2048_000_350_000 h_S_ (ix3 b r d)
      = Cert.Spec.xpad x b r.val d := by
  have hb := b.isLt; have hr := r.isLt; have hd := d.isLt
  have h1 : (1 : Nat) < 3 := by omega
  have key : (∀ a : Fin 3, (![0, 3, 0] : Fin 3 → Nat) a ≤ ((ix3 b r d) (a.cast rfl)).val
        ∧ (((ix3 b r d) (a.cast rfl)).val - (![0, 3, 0] : Fin 3 → Nat) a) % ((![0, 0, 0] : Fin 3 → Nat) a + 1) = 0
        ∧ (((ix3 b r d) (a.cast rfl)).val - (![0, 3, 0] : Fin 3 → Nat) a) / ((![0, 0, 0] : Fin 3 → Nat) a + 1) < S4x4096x2048.size a)
      ↔ (3 ≤ r.val ∧ r.val < 4099) := by
    constructor
    · intro hin
      have h3 : 3 ≤ r.val ∧ (r.val - 3) % (0 + 1) = 0 ∧ (r.val - 3) / (0 + 1) < 4096 := hin ⟨1, h1⟩
      omega
    · intro h a
      match a with
      | ⟨0, _⟩ => show 0 ≤ b.val ∧ (b.val - 0) % (0 + 1) = 0 ∧ (b.val - 0) / (0 + 1) < 4; omega
      | ⟨1, _⟩ => show 3 ≤ r.val ∧ (r.val - 3) % (0 + 1) = 0 ∧ (r.val - 3) / (0 + 1) < 4096; omega
      | ⟨2, _⟩ => show 0 ≤ d.val ∧ (d.val - 0) % (0 + 1) = 0 ∧ (d.val - 0) / (0 + 1) < 2048; omega
  unfold pad Cert.Spec.xpad
  by_cases h : 3 ≤ r.val ∧ r.val < 4099
  · rw [dif_pos (key.2 h), dif_pos h]
    exact congrArg x (funext fun a => Fin.ext (by
      match a with
      | ⟨0, _⟩ => show (b.val - 0) / (0 + 1) = b.val; omega
      | ⟨1, _⟩ => show (r.val - 3) / (0 + 1) = r.val - 3; omega
      | ⟨2, _⟩ => show (d.val - 0) / (0 + 1) = d.val; omega))
  · rw [dif_neg (mt key.1 h), dif_neg h]
    show (((0#32 : BitVec 32).toInt : ℝ) : EReal) = 0
    simp

/-! ## The four arrays at an index -/

/-- The padded array at batch `b`, row `r`, channel `d`: the token array's row `r - 3`, zero outside rows 3 … 4098. -/
theorem V_pad_apply (c : Dev nD) (b : Fin 4) (r : Fin 4104) (d : Fin 2048) :
    V m c main_call0_v0 (ix3 b r d) = Cert.Spec.xpad (m ((c : Thread nD τ).loc main_arg0)) b r.val d :=
  (congrFun (V_pad_term m c) (ix3 b r d)).trans (pad_read _ b r d)

/-- The narrowed first-layer weights are the argument. -/
theorem V_w1_apply (c : Dev nD) (k : Fin 2048) (h : Fin 256) :
    V m c main_call0_v7 (ix2 k h) = m ((c : Thread nD τ).loc main_arg1) (ix2 k h) :=
  congrFun (V_w1_term m c) (ix2 k h)

/-- Column `w · 2048 + d` of the re-laid second layer is column `4 d + w` of the argument. -/
theorem V_w2_apply (c : Dev nD) (h : Fin 256) (w : Fin 4) (d : Fin 2048) :
    V m c main_call0_v8 (ix2 h (pcol w d)) = m ((c : Thread nD τ).loc main_arg2) (ix2 h (Cert.Spec.col d w)) := by
  have hh := h.isLt; have hw := w.isLt; have hd := d.isLt
  refine (congrFun (V_w2_term m c) (ix2 h (pcol w d))).trans ?_
  refine (truncf_apply (ψ := .bf16) (φ := .f32) (s := S256x8192) _ bitsLt_bf16_f32 (ix2 h (pcol w d))).trans ?_
  -- [256, 4·2048] at (h, w·2048 + d) reads [256, 4, 2048] at (h, w, d)
  refine (shapeCast_apply _ _ _ (ix3 h w d) (by
    rw [Shape.rowMajor_val_three, Shape.rowMajor_val_two]
    show (h.val * 4 + w.val) * 2048 + d.val = h.val * 8192 + (w.val * 2048 + d.val)
    omega)).trans ?_
  -- the exchange of the last two axes: [256, 4, 2048] at (h, w, d) reads [256, 2048, 4] at (h, d, w)
  refine (transpose_apply _ _ _ _ (ix3 h d w) (fun a => match a with | ⟨0, _⟩ => rfl | ⟨1, _⟩ => rfl | ⟨2, _⟩ => rfl)).trans ?_
  -- [256, 2048, 4] at (h, d, w) reads [256, 2048·4] at (h, 4·d + w)
  exact shapeCast_apply _ _ _ (ix2 h (Cert.Spec.col d w)) (by
    rw [Shape.rowMajor_val_two, Shape.rowMajor_val_three]
    show h.val * 8192 + (4 * d.val + w.val) = (h.val * 2048 + d.val) * 4 + w.val
    omega)

/-- Entry `w · 2048 + d` of the re-laid bias is entry `4 d + w` of the argument. -/
theorem V_b2_apply (c : Dev nD) (w : Fin 4) (d : Fin 2048) :
    V m c main_call0_v6 (ix1 (pcol w d)) = m ((c : Thread nD τ).loc main_arg3) (ix1 (Cert.Spec.col d w)) := by
  have hw := w.isLt; have hd := d.isLt
  refine (congrFun (V_b2_term m c) (ix1 (pcol w d))).trans ?_
  -- [4·2048] at w·2048 + d reads [4, 2048] at (w, d)
  refine (shapeCast_apply _ _ _ (ix2 w d) (by
    rw [Shape.rowMajor_val_two, Shape.rowMajor_val_one]
    show w.val * 2048 + d.val = w.val * 2048 + d.val
    rfl)).trans ?_
  -- the exchange of the two axes: [4, 2048] at (w, d) reads [2048, 4] at (d, w)
  refine (transpose_apply _ _ _ _ (ix2 d w) (fun a => match a with | ⟨0, _⟩ => rfl | ⟨1, _⟩ => rfl)).trans ?_
  -- [2048, 4] at (d, w) reads [2048·4] at 4·d + w
  exact shapeCast_apply _ _ _ (ix1 (Cert.Spec.col d w)) (by
    rw [Shape.rowMajor_val_one, Shape.rowMajor_val_two]
    show 4 * d.val + w.val = d.val * 4 + w.val
    omega)

end Cert.KernelIdeal.Hand

end
-- ==== Proof.KI.Value.lean ====
/-
  From the blocks to the whole result array.

  Grid point `(b, i)` writes back, over rows `256 i … 256 i + 255` of batch `b`, the output block the body left:
  `silu` of the four taps against four consecutive rows of the padded input, each tap and each row read off the
  arrays the region finds. Read through the host operations those are the taps and the padded rows of the
  specification at time `256 i + r`; the 64 blocks tile the result; so the result array ends at the specification.
-/
import proofs.«137645_j51651276701955_1_alg».proof.Proof.KI.Data
import proofs.«137645_j51651276701955_1_alg».proof.Proof.KI.HostVals
import proofs.«137645_j51651276701955_1_alg».proof.Proof.KI.PayAt
import proofs.«137645_j51651276701955_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

namespace ToArray

/-! ## The block index of every window at every grid point

Point `t` of the 4 × 16 grid is batch `t / 16`, tile `t % 16`. The token block, the padded array's 256-row block and the
output block sit at block `(t / 16, t % 16, 0)`; the 8-row block at `(t / 16, 32 (t % 16 + 1), 0)`, that is at row
`256 (t % 16 + 1)`; the weights and the bias at block zero. Each is decided once over the 64 points. -/

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)
theorem idx2 : ∀ t : Fin cfg0.N, win0_2.index t (0 : Fin 3) = t.val / 16 ∧ win0_2.index t (1 : Fin 3) = (t.val % 16 + 1) * 32 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 3) = t.val / 16 ∧ win0_6.index t (1 : Fin 3) = t.val % 16 ∧ win0_6.index t (2 : Fin 3) = 0 :=
  (by decide +kernel : ∀ t : Fin grid0.N, _)

/-! ## Each input block read at an index of its array

An element of a block sits in its array, on each axis, at block index × block size + its coordinate in the block. -/

/-- The token block: row `r` is row `256 (t % 16) + r` of batch `t / 16`. -/
theorem iblk0_at (c : Dev nD) (t : Fin cfg0.N) (r : Fin 256) (k : Fin 2048) (j : S4x4096x2048.Idx)
    (hj0 : (j 0).val = t.val / 16) (hj1 : (j 1).val = (t.val % 16) * 256 + r.val) (hj2 : (j 2).val = k.val) :
    (iblk m c 0 t : Vec Ideal S1x256x2048 .f32) (ix3 0 r k) = V m c main_arg0 j := by
  obtain ⟨e0, e1, e2⟩ := idx0 t
  unfold iblk
  rw [View.read_apply]
  show V m c main_arg0 _ = V m c main_arg0 _
  congr 1
  funext a
  apply Fin.ext
  match a with
  | ⟨0, _⟩ => show win0_0.index t (0 : Fin 3) * 1 + 1 * 0 = (j 0).val; omega
  | ⟨1, _⟩ => show win0_0.index t (1 : Fin 3) * 256 + 1 * r.val = (j 1).val; omega
  | ⟨2, _⟩ => show win0_0.index t (2 : Fin 3) * 2048 + 1 * k.val = (j 2).val; omega

/-- The padded array's 256-row block: every index of the staging buffer is one the fetch moved. -/
theorem blk1_at (c : Dev nD) (t : Fin cfg0.N) (r : Fin 256) (d : Fin 2048) (j : S4x4104x2048.Idx)
    (hj0 : (j 0).val = t.val / 16) (hj1 : (j 1).val = (t.val % 16) * 256 + r.val) (hj2 : (j 2).val = d.val) :
    (blk1 m c t : Vec Ideal S1x256x2048 .f32) (ix3 0 r d) = V m c main_call0_v0 j := by
  obtain ⟨e0, e1, e2⟩ := idx1 t
  have hm : win0_1.moved (grid0.coords t) (ix3 0 r d) = true :=
    (win0_1.moved_iff _ _).mpr fun a => by
      have := ((ix3 0 r d : S1x256x2048.Idx) a).isLt
      unfold Window.xsize; rw [clip1_none t a]; exact this
  unfold blk1 Window.fill
  rw [dif_pos hm]
  unfold iblk
  rw [View.read_apply]
  show V m c main_call0_v0 _ = V m c main_call0_v0 _
  congr 1
  funext a
  apply Fin.ext
  match a with
  | ⟨0, _⟩ => show win0_1.index t (0 : Fin 3) * 1 + 1 * 0 = (j 0).val; omega
  | ⟨1, _⟩ => show win0_1.index t (1 : Fin 3) * 256 + 1 * r.val = (j 1).val; omega
  | ⟨2, _⟩ => show win0_1.index t (2 : Fin 3) * 2048 + 1 * d.val = (j 2).val; omega

/-- The 8 rows after it: row `r` is row `256 (t % 16 + 1) + r` of the padded array. -/
theorem iblk2_at (c : Dev nD) (t : Fin cfg0.N) (r : Fin 8) (d : Fin 2048) (j : S4x4104x2048.Idx)
    (hj0 : (j 0).val = t.val / 16) (hj1 : (j 1).val = (t.val % 16 + 1) * 256 + r.val) (hj2 : (j 2).val = d.val) :
    (iblk m c 2 t : Vec Ideal S1x8x2048 .f32) (ix3 0 r d) = V m c main_call0_v0 j := by
  obtain ⟨e0, e1, e2⟩ := idx2 t
  unfold iblk
  rw [View.read_apply]
  show V m c main_call0_v0 _ = V m c main_call0_v0 _
  congr 1
  funext a
  apply Fin.ext
  match a with
  | ⟨0, _⟩ => show win0_2.index t (0 : Fin 3) * 1 + 1 * 0 = (j 0).val; omega
  | ⟨1, _⟩ => show win0_2.index t (1 : Fin 3) * 8 + 1 * r.val = (j 1).val; omega
  | ⟨2, _⟩ => show win0_2.index t (2 : Fin 3) * 2048 + 1 * d.val = (j 2).val; omega

/-- The first-layer weights, the re-laid second-layer weights and the re-laid bias are staged whole. -/
theorem iblk3_at (c : Dev nD) (t : Fin cfg0.N) (k : Fin 2048) (h : Fin 256) :
    (iblk m c 3 t : Vec Ideal S2048x256 .bf16) (ix2 k h) = V m c main_call0_v7 (ix2 k h) := by
  obtain ⟨e0, e1⟩ := idx3 t
  unfold iblk
  rw [View.read_apply]
  show V m c main_call0_v7 _ = V m c main_call0_v7 _
  congr 1
  funext a
  apply Fin.ext
  match a with
  | ⟨0, _⟩ => show win0_3.index t (0 : Fin 2) * 2048 + 1 * k.val = k.val; omega
  | ⟨1, _⟩ => show win0_3.index t (1 : Fin 2) * 256 + 1 * h.val = h.val; omega

theorem iblk4_at (c : Dev nD) (t : Fin cfg0.N) (h : Fin 256) (q : Fin 8192) :
    (iblk m c 4 t : Vec Ideal S256x8192 .bf16) (ix2 h q) = V m c main_call0_v8 (ix2 h q) := by
  obtain ⟨e0, e1⟩ := idx4 t
  unfold iblk
  rw [View.read_apply]
  show V m c main_call0_v8 _ = V m c main_call0_v8 _
  congr 1
  funext a
  apply Fin.ext
  match a with
  | ⟨0, _⟩ => show win0_4.index t (0 : Fin 2) * 256 + 1 * h.val = h.val; omega
  | ⟨1, _⟩ => show win0_4.index t (1 : Fin 2) * 8192 + 1 * q.val = q.val; omega

theorem iblk5_at (c : Dev nD) (t : Fin cfg0.N) (q : Fin 8192) :
    (iblk m c 5 t : Vec Ideal S8192 .f32) (ix1 q) = V m c main_call0_v6 (ix1 q) := by
  have e0 := idx5 t
  unfold iblk
  rw [View.read_apply]
  show V m c main_call0_v6 _ = V m c main_call0_v6 _
  congr 1
  funext a
  apply Fin.ext
  match a with
  | ⟨0, _⟩ => show win0_5.index t (0 : Fin 1) * 8192 + 1 * q.val = q.val; omega

/-- The batch of grid point `t`, -/
def ptBatch (t : Fin cfg0.N) : Fin 4 := ⟨t.val / 16, by have h : t.val < 64 := Nat.lt_of_lt_of_eq t.isLt N_0; omega⟩

/-- and row `r` of its tile (256 rows a tile) as a row of the 4096-row arrays. -/
def ptRow (t : Fin cfg0.N) (r : Fin 256) : Fin 4096 := ⟨(t.val % 16) * 256 + r.val, by have := r.isLt; omega⟩

/-! ## One element of the output block against the specification -/

/-- A tap computed from the blocks is the specification's tap, once each block reads as the argument arrays do. -/
theorem btap_eq_ker (x : FVec Ideal Cert.Spec.SX .f32) (w1 : FVec Ideal Cert.Spec.SW1 .f32) (w2 : FVec Ideal Cert.Spec.SW2 .f32)
    (b2 : FVec Ideal Cert.Spec.SB2 .f32)
    (x0 : Vec Ideal S1x256x2048 .f32) (x3 : Vec Ideal S2048x256 .bf16) (x4 : Vec Ideal S256x8192 .bf16) (x5 : Vec Ideal S8192 .f32)
    (b : Fin 4) (r : Fin 256) (d : Fin 2048) (T : Fin 4096)
    (h0 : ∀ k, x0 (ix3 0 r k) = x (ix3 b T k))
    (h3 : ∀ k h, x3 (ix2 k h) = w1 (ix2 k h))
    (h4 : ∀ h w, x4 (ix2 h (pcol w d)) = w2 (ix2 h (Cert.Spec.col d w)))
    (h5 : ∀ w, x5 (ix1 (pcol w d)) = b2 (ix1 (Cert.Spec.col d w))) (w : Fin 4) :
    btap x0 x3 x4 x5 r d w = Cert.Spec.ker x w1 w2 b2 b T d w := by
  unfold btap Cert.Spec.ker Cert.Spec.hid
  rw [h5 w]
  congr 1
  refine Finset.sum_congr rfl fun h _ => ?_
  rw [h4 h w]
  congr 2
  refine Finset.sum_congr rfl fun k _ => ?_
  rw [h0 k, h3 k h]

/-- A scratch row is the padded row of the specification: rows below 256 come from the 256-row block, the rest from the
    8 rows that follow it in the padded array. -/
theorem srow_eq_xpad (x : FVec Ideal Cert.Spec.SX .f32) (x1 : Vec Ideal S1x256x2048 .f32) (x2 : Vec Ideal S1x8x2048 .f32)
    (b : Fin 4) (i : ℕ) (d : Fin 2048)
    (h1 : ∀ (r' : Fin 256), x1 (ix3 0 r' d) = Cert.Spec.xpad x b (256 * i + r'.val) d)
    (h2 : ∀ (r' : Fin 8), x2 (ix3 0 r' d) = Cert.Spec.xpad x b (256 * (i + 1) + r'.val) d)
    (n : ℕ) (hn : n < 264) (N : ℕ) (hN : N = 256 * i + n) :
    srow x1 x2 n d = Cert.Spec.xpad x b N d := by
  subst hN
  unfold srow
  by_cases h : n < 256
  · rw [dif_pos h, h1 ⟨n, h⟩]
  · rw [dif_neg h, dif_pos hn, h2 ⟨n - 256, by omega⟩]
    congr 1
    show 256 * (i + 1) + (n - 256) = 256 * i + n
    omega

/-- Row `r`, channel `d` of the output block, over blocks that read as the argument arrays do at batch `b`, tile `i`:
    the specification's result at time `256 i + r`. -/
theorem point_eq (x : FVec Ideal Cert.Spec.SX .f32) (w1 : FVec Ideal Cert.Spec.SW1 .f32) (w2 : FVec Ideal Cert.Spec.SW2 .f32)
    (b2 : FVec Ideal Cert.Spec.SB2 .f32)
    (x0 x1 : Vec Ideal S1x256x2048 .f32) (x2 : Vec Ideal S1x8x2048 .f32) (x3 : Vec Ideal S2048x256 .bf16)
    (x4 : Vec Ideal S256x8192 .bf16) (x5 : Vec Ideal S8192 .f32)
    (b : Fin 4) (i : ℕ) (r : Fin 256) (d : Fin 2048) (T : Fin 4096) (hT : T.val = 256 * i + r.val)
    (h0 : ∀ k, x0 (ix3 0 r k) = x (ix3 b T k))
    (h1 : ∀ (r' : Fin 256), x1 (ix3 0 r' d) = Cert.Spec.xpad x b (256 * i + r'.val) d)
    (h2 : ∀ (r' : Fin 8), x2 (ix3 0 r' d) = Cert.Spec.xpad x b (256 * (i + 1) + r'.val) d)
    (h3 : ∀ k h, x3 (ix2 k h) = w1 (ix2 k h))
    (h4 : ∀ h w, x4 (ix2 h (pcol w d)) = w2 (ix2 h (Cert.Spec.col d w)))
    (h5 : ∀ w, x5 (ix1 (pcol w d)) = b2 (ix1 (Cert.Spec.col d w))) :
    outPay (F := Ideal) x0 x1 x2 x3 x4 x5 (ix3 0 r d) = Cert.Spec.outAt x w1 w2 b2 b T d := by
  have hr := r.isLt
  rw [outPay_apply]
  unfold Cert.Spec.outAt Cert.Spec.acc
  rw [btap_eq_ker x w1 w2 b2 x0 x3 x4 x5 b r d T h0 h3 h4 h5 0, btap_eq_ker x w1 w2 b2 x0 x3 x4 x5 b r d T h0 h3 h4 h5 1,
    btap_eq_ker x w1 w2 b2 x0 x3 x4 x5 b r d T h0 h3 h4 h5 2, btap_eq_ker x w1 w2 b2 x0 x3 x4 x5 b r d T h0 h3 h4 h5 3,
    srow_eq_xpad x x1 x2 b i d h1 h2 (r.val + 0) (by omega) (T.val + 0) (by omega),
    srow_eq_xpad x x1 x2 b i d h1 h2 (r.val + 1) (by omega) (T.val + 1) (by omega),
    srow_eq_xpad x x1 x2 b i d h1 h2 (r.val + 2) (by omega) (T.val + 2) (by omega),
    srow_eq_xpad x x1 x2 b i d h1 h2 (r.val + 3) (by omega) (T.val + 3) (by omega)]

/-- Row `r`, channel `d` of what the body leaves at point `t` is the specification at batch `t / 16`, time `256 (t % 16) + r`. -/
theorem pay_at (c : Dev nD) (t : Fin cfg0.N) (r : Fin 256) (d : Fin 2048) :
    outPay (F := Ideal) (iblk m c 0 t) (blk1 m c t) (iblk m c 2 t) (iblk m c 3 t) (iblk m c 4 t) (iblk m c 5 t) (ix3 0 r d)
      = Cert.Spec.outAt (m ((c : Thread nD τ).loc main_arg0)) (m ((c : Thread nD τ).loc main_arg1))
          (m ((c : Thread nD τ).loc main_arg2)) (m ((c : Thread nD τ).loc main_arg3)) (ptBatch t) (ptRow t r) d := by
  have ht : t.val < 64 := Nat.lt_of_lt_of_eq t.isLt N_0
  refine point_eq _ _ _ _ _ _ _ _ _ _ (ptBatch t) (t.val % 16) r d (ptRow t r) (by show t.val % 16 * 256 + r.val = _; omega) ?_ ?_ ?_ ?_ ?_ ?_
  · intro k
    rw [iblk0_at m c t r k (ix3 (ptBatch t) (ptRow t r) k) rfl rfl rfl, V_main_arg0]
  · intro r'
    rw [blk1_at m c t r' d (ix3 (ptBatch t) (⟨t.val % 16 * 256 + r'.val, by have := r'.isLt; omega⟩ : Fin 4104) d) rfl rfl rfl, V_pad_apply]
    congr 1
    show t.val % 16 * 256 + r'.val = _
    omega
  · intro r'
    rw [iblk2_at m c t r' d (ix3 (ptBatch t) (⟨(t.val % 16 + 1) * 256 + r'.val, by have := r'.isLt; omega⟩ : Fin 4104) d) rfl rfl rfl, V_pad_apply]
    congr 1
    show (t.val % 16 + 1) * 256 + r'.val = _
    omega
  · intro k h
    rw [iblk3_at, V_w1_apply]
  · intro h w
    rw [iblk4_at, V_w2_apply]
  · intro w
    rw [iblk5_at, V_b2_apply]

/-! ## From the blocks to the array -/

/-- The output block is stored through its whole rectangle, at offset zero on every axis. -/
theorem outOff_zero : (![0, 0, 0] : Fin 3 → Nat) = fun _ => 0 := funext fun a => by fin_cases a <;> rfl

/-- An index of the output block is its row and its channel. -/
theorem exists_row_chan (y : S1x256x2048.Idx) : ∃ (r : Fin 256) (d : Fin 2048), y = ix3 0 r d :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

/-- What point `t` writes back is block `t` of the specification's array. -/
theorem flushed_eq (c : Dev nD) (t : Fin cfg0.N) :
    (dats m 0 c).flushed 6 t = ((cfg0.win 6).blk t).view.read (Elt Ideal)
      (Cert.Spec.G (m ((c : Thread nD τ).loc main_arg0)) (m ((c : Thread nD τ).loc main_arg1))
          (m ((c : Thread nD τ).loc main_arg2)) (m ((c : Thread nD τ).loc main_arg3))) := by
  show (cfg0.win 6).cut (grid0.coords t) ((dats m 0 c).after 6 t) = _
  rw [after0_6]
  unfold out6
  rw [View.canon_unit_zero outOff_zero]
  obtain ⟨e0, e1, e2⟩ := idx6 t
  funext y
  obtain ⟨r, d, rfl⟩ := exists_row_chan y
  rw [View.read_apply]
  refine (pay_at m c t r d).trans ?_
  rw [← Cert.Spec.G_ix3]
  show Cert.Spec.G _ _ _ _ _ = Cert.Spec.G _ _ _ _ _
  congr 1
  funext a
  apply Fin.ext
  match a with
  | ⟨0, _⟩ => show t.val / 16 = win0_6.index t (0 : Fin 3) * 1 + 1 * 0; omega
  | ⟨1, _⟩ => show t.val % 16 * 256 + r.val = win0_6.index t (1 : Fin 3) * 256 + 1 * r.val; omega
  | ⟨2, _⟩ => show d.val = win0_6.index t (2 : Fin 3) * 2048 + 1 * d.val; omega

/-- An index of the array is in point `t`'s block iff each coordinate is in the block's range on its axis. -/
theorem mem_blk6 (t : Fin cfg0.N) (i : S4x4096x2048.Idx) :
    i ∈ ((cfg0.win 6).blk t).view.set ↔ ∀ a : Fin 3, win0_6.index t a * S1x256x2048.size a ≤ (i a).val
      ∧ (i a).val < win0_6.index t a * S1x256x2048.size a + S1x256x2048.size a := by
  show i ∈ ((View.whole main_v0).slice (win0_6.rect t)).set ↔ _
  rw [View.set_slice_whole, Rect.mem_set_unit]
  exact Iff.rfl

/-- The 64 blocks tile the array: row `ρ` of batch `b` is in the block of point `16 b + ρ / 256`. -/
theorem tiles6 (i : S4x4096x2048.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 2048 := (i 2).isLt
  obtain ⟨t, htv⟩ : ∃ t : Fin cfg0.N, t.val = 16 * (i 0).val + (i 1).val / 256 :=
    ⟨⟨16 * (i 0).val + (i 1).val / 256, Nat.lt_of_lt_of_eq (show 16 * (i 0).val + (i 1).val / 256 < 64 by omega) N_0.symm⟩, rfl⟩
  obtain ⟨e0, e1, e2⟩ := idx6 t
  refine ⟨t, flush0_6 t, ?_⟩
  rw [mem_blk6]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 2048 ≤ (i 2).val ∧ (i 2).val < win0_6.index t (2 : Fin 3) * 2048 + 2048
    omega

end ToArray

/-- After the last write-back the result array is the specification of the four argument arrays. -/
theorem final6 (c : Dev nD) :
    (dats m 0 c).arrAt 6 cfg0.N
      = Cert.Spec.G (m ((c : Thread nD τ).loc main_arg0)) (m ((c : Thread nD τ).loc main_arg1))
          (m ((c : Thread nD τ).loc main_arg2)) (m ((c : Thread nD τ).loc main_arg3)) :=
  (dats m 0 c).arrAt_eq_of_cover 6 _ (fun t _ => ToArray.flushed_eq m c t) ToArray.tiles6

end Cert.KernelIdeal.Hand

end
-- ==== Proof.KI.Run.lean ====
/-
  The idealized kernel's run with its result named: the result array ends at the specification of the four
  argument arrays, and the arguments end as launched.
-/
import proofs.«137645_j51651276701955_1_alg».proof.Proof.KI.Frame
import proofs.«137645_j51651276701955_1_alg».proof.Proof.KI.Value

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- Every weakly fair execution of the idealized kernel terminates with the result array at the specification
    (the result is the last window's array, overwritten block by block by what the body left) and the four
    argument arrays unchanged. -/
theorem run_value : θ_run defs (onTc (τ := τ) (main (F := Ideal))) ⟨m, fun _ => 0, ρ⟩ (fun r => ∀ c : Dev nD,
      r.2.mem ((c.tc : Thread nD τ).loc main_v0)
        = Cert.Spec.G (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 6).trans (final6 m c),
      ((h c).1 0).trans (((dats m 0 c).arrAt_in 0 rfl _).trans ((A_eq m c 0).trans (V_main_arg0 m c))),
      ((h c).2 main_arg1 arg1_rest).trans (V_main_arg1 m c),
      ((h c).2 main_arg2 arg2_rest).trans (V_main_arg2 m c),
      ((h c).2 main_arg3 arg3_rest).trans (V_main_arg3 m c)⟩) (run_main m ρ)

end Cert.KernelIdeal.Hand

end
-- ==== Proof.RefIsSpec.lean ====
/-
  The reference program computes the specified array.

  Read index by index on the extended reals, the reference's 49 operations are: a hidden layer
  silu (Σ_k x[b,t,k] · w1[k,h]); a second layer Σ_h hid · w2[h,o] + b2[o], whose 8192 columns, regrouped as
  2048 × 4, give tap w of channel d at column 4·d + w; x with three zero rows put in front along time; the
  four taps against four consecutive padded rows, added from the left onto zero; and a final silu.
  Each of these is proved at an index with literal coordinates, bottom-up, and the last lemma assembles them.
-/
import proofs.«137645_j51651276701955_1_alg».proof.Proof.Gen.ReferenceIdeal.Read
import proofs.«137645_j51651276701955_1_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Read Cert.Spec Idealize.ShloMosaic Idealize.ShloMosaic.ValueIdx

/-! ## The constant one and silu -/

/-- The word 0x3F800000 denotes the real number one. -/
theorem one_f32 : Ideal.ofBits .f32 0x3F800000#32 = 1 := by
  simp [Ideal.ofBits, Ideal.ieee, -EReal.coe_mul]; norm_num

/-- a · (1 / (1 + e^(-a))), both ones spelt as the word 0x3F800000, is silu a. -/
theorem silu_words (a : EReal) :
    a * Ideal.div (Ideal.ofBits .f32 0x3F800000#32) (Ideal.ofBits .f32 0x3F800000#32 + Ideal.exp (-a)) = silu a := by
  rw [one_f32]; rfl

/-! ## The hidden layer -/

/-- The hidden layer at (b, t, h): silu of the contraction of x's row (b, t) with w1's column h. -/
theorem hid_read (x : (⟨S4x4096x2048, .f32⟩ : BufTy).Contents (Elt Ideal)) (w1 : (⟨S2048x256, .f32⟩ : BufTy).Contents (Elt Ideal))
    (b : Fin 4) (t : Fin 4096) (h : Fin 256) :
    val_main_v1 (F := Ideal) x w1 (ix3 b t h) = hid x w1 b t h := by
  rw [val_main_v1_apply, val_main_call0_v5_apply, val_main_call0_v4_apply, val_main_call0_cst_0_apply,
    val_main_call0_v3_apply, val_main_call0_v2_apply, val_main_call0_cst_apply, val_main_call0_v1_apply,
    val_main_call0_v0_apply, val_main_v0_apply]
  have el : ∀ k : Fin 2048, lidx_main_v0 (ix3 b t h) k = ix3 b t k := fun k => funext fun a => Fin.ext (by
    match a with | ⟨0, _⟩ => rfl | ⟨1, _⟩ => rfl | ⟨2, _⟩ => rfl)
  have er : ∀ k : Fin 2048, ridx_main_v0 (ix3 b t h) k = ix2 k h := fun k => funext fun a => Fin.ext (by
    match a with | ⟨0, _⟩ => rfl | ⟨1, _⟩ => rfl)
  simp only [el, er, Ideal.mulf_def, Ideal.hostDivf_def, Ideal.addf_def, Ideal.hostUnary_exp_def, Ideal.hostNegf_def,
    Ideal.negf_def, Ideal.ofBits_def]
  exact silu_words _

/-! ## The second layer, and its columns regrouped as taps -/

/-- The second layer at (b, t, o): the hidden row against w2's column o, plus the bias. -/
theorem flat_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (o : Fin 8192) :
    val_main_v5 (F := Ideal) x w1 w2 b2 (ix3 b t o) = (∑ h : Fin 256, hid x w1 b t h * w2 (ix2 h o)) + b2 (ix1 o) := by
  rw [val_main_v5_apply, val_main_v2_apply, val_main_v4_apply, val_main_v3_apply]
  have el : ∀ k : Fin 256, lidx_main_v2 (ix3 b t o) k = ix3 b t k := fun k => funext fun a => Fin.ext (by
    match a with | ⟨0, _⟩ => rfl | ⟨1, _⟩ => rfl | ⟨2, _⟩ => rfl)
  have er : ∀ k : Fin 256, ridx_main_v2 (ix3 b t o) k = ix2 k o := fun k => funext fun a => Fin.ext (by
    match a with | ⟨0, _⟩ => rfl | ⟨1, _⟩ => rfl)
  have eb : idx_main_v3 (idx_main_v4 (ix3 b t o)) = ix1 o := funext fun a => Fin.ext (by
    match a with | ⟨0, _⟩ => rfl)
  simp only [el, er, eb, hid_read, Ideal.addf_def]

/-- The 8192 columns regrouped as 2048 × 4: entry (b, t, d, w) is column 4·d + w, tap w of channel d. -/
theorem ker_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) (w : Fin 4) :
    val_main_v6 (F := Ideal) x w1 w2 b2 (ix4 b t d w) = ker x w1 w2 b2 b t d w := by
  have e : idx_main_v6 (ix4 b t d w) = ix3 b t (col d w) := funext fun a => Fin.ext (by
    have hb := b.isLt; have ht := t.isLt; have hd := d.isLt; have hw := w.isLt
    match a with
    | ⟨0, _⟩ => show (((b.val * 4096 + t.val) * 2048 + d.val) * 4 + w.val) / 33554432 = b.val; omega
    | ⟨1, _⟩ => show (((b.val * 4096 + t.val) * 2048 + d.val) * 4 + w.val) / 8192 % 4096 = t.val; omega
    | ⟨2, _⟩ => show (((b.val * 4096 + t.val) * 2048 + d.val) * 4 + w.val) % 8192 = 4 * d.val + w.val; omega)
  rw [val_main_v6_apply, e, flat_read]; rfl

/-- Tap 0 as an array over (b, t, d). -/
theorem tap0_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v10 (F := Ideal) x w1 w2 b2 (ix3 b t d) = ker x w1 w2 b2 b t d 0 := by
  have e : idx_main_v9 (idx_main_v10 (ix3 b t d)) = ix4 b t d (0 : Fin 4) := funext fun a => Fin.ext (by
    have hb := b.isLt; have ht := t.isLt; have hd := d.isLt
    match a with
    | ⟨0, _⟩ => show ((b.val * 4096 + t.val) * 2048 + d.val) / 8388608 = b.val; omega
    | ⟨1, _⟩ => show ((b.val * 4096 + t.val) * 2048 + d.val) / 2048 % 4096 = t.val; omega
    | ⟨2, _⟩ => show ((b.val * 4096 + t.val) * 2048 + d.val) / 1 % 2048 = d.val; omega
    | ⟨3, _⟩ => rfl)
  rw [val_main_v10_apply, val_main_v9_apply, e, ker_read]

/-- Tap 1 as an array over (b, t, d). -/
theorem tap1_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v15 (F := Ideal) x w1 w2 b2 (ix3 b t d) = ker x w1 w2 b2 b t d 1 := by
  have e : idx_main_v14 (idx_main_v15 (ix3 b t d)) = ix4 b t d (1 : Fin 4) := funext fun a => Fin.ext (by
    have hb := b.isLt; have ht := t.isLt; have hd := d.isLt
    match a with
    | ⟨0, _⟩ => show ((b.val * 4096 + t.val) * 2048 + d.val) / 8388608 = b.val; omega
    | ⟨1, _⟩ => show ((b.val * 4096 + t.val) * 2048 + d.val) / 2048 % 4096 = t.val; omega
    | ⟨2, _⟩ => show ((b.val * 4096 + t.val) * 2048 + d.val) / 1 % 2048 = d.val; omega
    | ⟨3, _⟩ => rfl)
  rw [val_main_v15_apply, val_main_v14_apply, e, ker_read]

/-- Tap 2 as an array over (b, t, d). -/
theorem tap2_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v20 (F := Ideal) x w1 w2 b2 (ix3 b t d) = ker x w1 w2 b2 b t d 2 := by
  have e : idx_main_v19 (idx_main_v20 (ix3 b t d)) = ix4 b t d (2 : Fin 4) := funext fun a => Fin.ext (by
    have hb := b.isLt; have ht := t.isLt; have hd := d.isLt
    match a with
    | ⟨0, _⟩ => show ((b.val * 4096 + t.val) * 2048 + d.val) / 8388608 = b.val; omega
    | ⟨1, _⟩ => show ((b.val * 4096 + t.val) * 2048 + d.val) / 2048 % 4096 = t.val; omega
    | ⟨2, _⟩ => show ((b.val * 4096 + t.val) * 2048 + d.val) / 1 % 2048 = d.val; omega
    | ⟨3, _⟩ => rfl)
  rw [val_main_v20_apply, val_main_v19_apply, e, ker_read]

/-- Tap 3 as an array over (b, t, d). -/
theorem tap3_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v25 (F := Ideal) x w1 w2 b2 (ix3 b t d) = ker x w1 w2 b2 b t d 3 := by
  have e : idx_main_v24 (idx_main_v25 (ix3 b t d)) = ix4 b t d (3 : Fin 4) := funext fun a => Fin.ext (by
    have hb := b.isLt; have ht := t.isLt; have hd := d.isLt
    match a with
    | ⟨0, _⟩ => show ((b.val * 4096 + t.val) * 2048 + d.val) / 8388608 = b.val; omega
    | ⟨1, _⟩ => show ((b.val * 4096 + t.val) * 2048 + d.val) / 2048 % 4096 = t.val; omega
    | ⟨2, _⟩ => show ((b.val * 4096 + t.val) * 2048 + d.val) / 1 % 2048 = d.val; omega
    | ⟨3, _⟩ => rfl)
  rw [val_main_v25_apply, val_main_v24_apply, e, ker_read]

/-! ## The padded array -/

/-- The signed integer zero converts to the real zero. -/
theorem sitofp_zero : FloatOps.sitofp (F := Ideal) .f32 (0#32 : BitVec 32) = 0 := by
  show (((0#32 : BitVec 32).toInt : ℝ) : EReal) = 0
  simp

/-- The padded array at row r: x's row r - 3 from row 3 on, zero on the three rows in front. -/
theorem pad_row (x : (⟨S4x4096x2048, .f32⟩ : BufTy).Contents (Elt Ideal)) (b : Fin 4) (r : Fin 4099) (d : Fin 2048) :
    val_main_v7 (F := Ideal) x (ix3 b r d) = xpad x b r.val d := by
  have hb := b.isLt; have hr := r.isLt; have hd := d.isLt
  unfold val_main_v7 pad xpad
  by_cases h : 3 ≤ r.val
  · have hin : ∀ a : Fin 3, (![0, 3, 0] : Fin 3 → Nat) a ≤ ((ix3 b r d) (a.cast rfl)).val
        ∧ (((ix3 b r d) (a.cast rfl)).val - (![0, 3, 0] : Fin 3 → Nat) a) % ((![0, 0, 0] : Fin 3 → Nat) a + 1) = 0
        ∧ (((ix3 b r d) (a.cast rfl)).val - (![0, 3, 0] : Fin 3 → Nat) a) / ((![0, 0, 0] : Fin 3 → Nat) a + 1) < S4x4096x2048.size a := by
      intro a
      match a with
      | ⟨0, _⟩ => show 0 ≤ b.val ∧ (b.val - 0) % (0 + 1) = 0 ∧ (b.val - 0) / (0 + 1) < 4; omega
      | ⟨1, _⟩ => show 3 ≤ r.val ∧ (r.val - 3) % (0 + 1) = 0 ∧ (r.val - 3) / (0 + 1) < 4096; omega
      | ⟨2, _⟩ => show 0 ≤ d.val ∧ (d.val - 0) % (0 + 1) = 0 ∧ (d.val - 0) / (0 + 1) < 2048; omega
    rw [dif_pos hin, dif_pos ⟨h, hr⟩]
    exact congrArg x (funext fun a => Fin.ext (by
      match a with
      | ⟨0, _⟩ => show (b.val - 0) / (0 + 1) = b.val; omega
      | ⟨1, _⟩ => show (r.val - 3) / (0 + 1) = r.val - 3; omega
      | ⟨2, _⟩ => show (d.val - 0) / (0 + 1) = d.val; omega))
  · have h1 : (1 : Nat) < 3 := by omega
    rw [dif_neg (fun hin => h (hin ⟨1, h1⟩).1), dif_neg (fun hc => h hc.1)]
    rw [val_main_call1_v0_apply, val_main_c_apply]
    exact sitofp_zero

/-- The slice of the padded array from row 0: at (b, t, d), padded row t + 0. -/
theorem row0_read (x : (⟨S4x4096x2048, .f32⟩ : BufTy).Contents (Elt Ideal)) (b : Fin 4) (t : Fin 4096) (d : Fin 2048) :
    val_main_v11 (F := Ideal) x (ix3 b t d) = xpad x b (t.val + 0) d := by
  have e : idx_main_v11 (ix3 b t d) = ix3 b (⟨t.val + 0, by omega⟩ : Fin 4099) d := funext fun a => Fin.ext (by
    match a with | ⟨0, _⟩ => rfl | ⟨1, _⟩ => rfl | ⟨2, _⟩ => rfl)
  rw [val_main_v11_apply, e, pad_row]

/-- The slice from row 1: at (b, t, d), padded row t + 1. -/
theorem row1_read (x : (⟨S4x4096x2048, .f32⟩ : BufTy).Contents (Elt Ideal)) (b : Fin 4) (t : Fin 4096) (d : Fin 2048) :
    val_main_v16 (F := Ideal) x (ix3 b t d) = xpad x b (t.val + 1) d := by
  have e : idx_main_v16 (ix3 b t d) = ix3 b (⟨t.val + 1, by omega⟩ : Fin 4099) d := funext fun a => Fin.ext (by
    match a with | ⟨0, _⟩ => rfl | ⟨1, _⟩ => show 1 + t.val = t.val + 1; omega | ⟨2, _⟩ => rfl)
  rw [val_main_v16_apply, e, pad_row]

/-- The slice from row 2: at (b, t, d), padded row t + 2. -/
theorem row2_read (x : (⟨S4x4096x2048, .f32⟩ : BufTy).Contents (Elt Ideal)) (b : Fin 4) (t : Fin 4096) (d : Fin 2048) :
    val_main_v21 (F := Ideal) x (ix3 b t d) = xpad x b (t.val + 2) d := by
  have e : idx_main_v21 (ix3 b t d) = ix3 b (⟨t.val + 2, by omega⟩ : Fin 4099) d := funext fun a => Fin.ext (by
    match a with | ⟨0, _⟩ => rfl | ⟨1, _⟩ => show 2 + t.val = t.val + 2; omega | ⟨2, _⟩ => rfl)
  rw [val_main_v21_apply, e, pad_row]

/-- The slice from row 3: at (b, t, d), padded row t + 3. -/
theorem row3_read (x : (⟨S4x4096x2048, .f32⟩ : BufTy).Contents (Elt Ideal)) (b : Fin 4) (t : Fin 4096) (d : Fin 2048) :
    val_main_v26 (F := Ideal) x (ix3 b t d) = xpad x b (t.val + 3) d := by
  have e : idx_main_v26 (ix3 b t d) = ix3 b (⟨t.val + 3, by omega⟩ : Fin 4099) d := funext fun a => Fin.ext (by
    match a with | ⟨0, _⟩ => rfl | ⟨1, _⟩ => show 3 + t.val = t.val + 3; omega | ⟨2, _⟩ => rfl)
  rw [val_main_v26_apply, e, pad_row]

/-! ## The convolution, and the result -/

/-- The four products added from the left onto zero. -/
theorem acc_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v28 (F := Ideal) x w1 w2 b2 (ix3 b t d) = acc x w1 w2 b2 b t d := by
  rw [val_main_v28_apply, val_main_v23_apply, val_main_v18_apply, val_main_v13_apply, val_main_v8_apply, val_main_cst_apply,
    val_main_v12_apply, val_main_v17_apply, val_main_v22_apply, val_main_v27_apply,
    tap0_read, tap1_read, tap2_read, tap3_read, row0_read, row1_read, row2_read, row3_read]
  simp only [Ideal.addf_def, Ideal.mulf_def, Ideal.ofBits_def, Ideal.ofBits_zero_f32, zero_add]
  rfl

/-- The result at (b, t, d): silu of the convolution. -/
theorem out_read (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal))
    (b : Fin 4) (t : Fin 4096) (d : Fin 2048) :
    val_main_v29 (F := Ideal) x w1 w2 b2 (ix3 b t d) = outAt x w1 w2 b2 b t d := by
  rw [val_main_v29_apply, val_main_call2_v5_apply, val_main_call2_v4_apply, val_main_call2_cst_0_apply,
    val_main_call2_v3_apply, val_main_call2_v2_apply, val_main_call2_cst_apply, val_main_call2_v1_apply,
    val_main_call2_v0_apply, acc_read]
  simp only [Ideal.mulf_def, Ideal.hostDivf_def, Ideal.addf_def, Ideal.hostUnary_exp_def, Ideal.hostNegf_def,
    Ideal.negf_def, Ideal.ofBits_def]
  exact silu_words _

/-- The reference program's result is the specified array. -/
theorem ref_eq (x : (⟨S4x4096x2048, .f32⟩ : BufTy).Contents (Elt Ideal)) (w1 : (⟨S2048x256, .f32⟩ : BufTy).Contents (Elt Ideal))
    (w2 : (⟨S256x8192, .f32⟩ : BufTy).Contents (Elt Ideal)) (b2 : (⟨S8192, .f32⟩ : BufTy).Contents (Elt Ideal)) :
    Cert.ReferenceIdeal.Read.val_main_v29 (F := Ideal) x w1 w2 b2 = Cert.Spec.G x w1 w2 b2 := by
  funext i
  obtain ⟨b, t, d, rfl⟩ : ∃ (b : Fin 4) (t : Fin 4096) (d : Fin 2048), i = ix3 b t d := ⟨i 0, i 1, i 2, eq_ix3 i⟩
  rw [out_read, G_ix3]

end Cert.ReferenceIdeal.RefValue

end
-- ==== Proof.lean ====
/-
  A per-token dynamic depthwise convolution with a generated kernel: a Pallas kernel against its jnp reference,
  equal on the extended reals.

  Both programs compute, for batch `b`, time `t`, channel `d`,
    out = silu (Σ_w ker(b, t, d, w) · xp(b, t + w, d)),   ker = silu (x · w1) · w2 + b2 read at column 4 d + w,
  `xp` the input with three zero rows in front along time (`Cert.Spec.G`, Proof/Spec.lean). The reference does
  it with two `dot_general`s, a reshape to (…, 2048, 4) and four shifted slices of the padded input
  (Proof/RefIsSpec.lean, over the generated run of the reference). The kernel re-lays the second layer on the host
  so that tap `w` of channel `d` is column 2048 w + d, pads the input, and runs one pipelined region on a 4 × 16
  grid whose body copies 264 padded rows into a scratch buffer and reads them back at row offsets 0 … 3
  (Proof/KI/Body.lean … Proof/KI/Value.lean). The padded array is read through two windows, which share it
  (Proof/LibSharedFrame.lean, Proof/KI/Split.lean). Sums and products are those of the extended reals in the same
  order on both sides, so no finiteness of the inputs is used: the precondition is never opened.
  The word-level kernel is the same text as the idealized one, and its frame is the same proof (Proof/K/).
-/
import proofs.«137645_j51651276701955_1_alg».proof.Defs
import proofs.«137645_j51651276701955_1_alg».proof.Proof.Gen.Kernel
import proofs.«137645_j51651276701955_1_alg».proof.Proof.Gen.KernelIdeal
import proofs.«137645_j51651276701955_1_alg».proof.Proof.Gen.ReferenceIdeal
import proofs.«137645_j51651276701955_1_alg».proof.Proof.Gen.ReferenceIdeal.Run
import proofs.«137645_j51651276701955_1_alg».proof.Proof.Gen.ReferenceIdeal.Read
import proofs.«137645_j51651276701955_1_alg».proof.Proof.Gen.Pre_finite_inputs
import proofs.«137645_j51651276701955_1_alg».proof.Proof.K.Frame
import proofs.«137645_j51651276701955_1_alg».proof.Proof.KI.Run
import proofs.«137645_j51651276701955_1_alg».proof.Proof.RefIsSpec
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end with the result at the specification of those
    arguments. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
